-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S2x800000 : Shape := ⟨2, ![2, 800000]⟩
abbrev S2x200000 : Shape := ⟨2, ![2, 200000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x256 .f32) (main_arg1 : FVec F S256x128 .f32) (main_arg2 : FVec F S128 .f32) (main_arg3 : FVec F S128x64 .f32) (main_arg4 : FVec F S64 .f32) (main_arg5 : IVec S2x800000 32) (main_arg6 : IVec S2x200000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S50000x256 : Shape := ⟨2, ![50000, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S2x800000 : Shape := ⟨2, ![2, 800000]⟩
abbrev S2x200000 : Shape := ⟨2, ![2, 200000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x128 : Shape := ⟨2, ![50000, 128]⟩
abbrev S2000x256 : Shape := ⟨2, ![2000, 256]⟩
abbrev S2000x128 : Shape := ⟨2, ![2000, 128]⟩
abbrev S800000x128 : Shape := ⟨2, ![800000, 128]⟩
abbrev S8000x128 : Shape := ⟨2, ![8000, 128]⟩
abbrev S8000x1 : Shape := ⟨2, ![8000, 1]⟩
abbrev S50000x1 : Shape := ⟨2, ![50000, 1]⟩
abbrev S1x128 : Shape := ⟨2, ![1, 128]⟩
abbrev S5000x128 : Shape := ⟨2, ![5000, 128]⟩
abbrev S50000x64 : Shape := ⟨2, ![50000, 64]⟩
abbrev S2000x64 : Shape := ⟨2, ![2000, 64]⟩
abbrev S800000x64 : Shape := ⟨2, ![800000, 64]⟩
abbrev S8000x64 : Shape := ⟨2, ![8000, 64]⟩
abbrev S1x64 : Shape := ⟨2, ![1, 64]⟩
abbrev S5000x64 : Shape := ⟨2, ![5000, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩
abbrev S8000 : Shape := ⟨1, ![8000]⟩

abbrev nBuf : Space → Nat
  | .hbm => 107
  | .vmem => 42
  | .smem => 0
  | _ => 0

abbrev bufTy : (tb : Table) → Fin (tcTables nBuf tb) → BufTy
  | .hbm, ⟨0, _⟩ => ⟨S50000x256, .f32⟩
  | .hbm, ⟨1, _⟩ => ⟨S256x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S2x800000, .i32⟩
  | .hbm, ⟨6, _⟩ => ⟨S2x200000, .i32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S800000, .f32⟩
  | .hbm, ⟨40, _⟩ => ⟨S50000, .f32⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S800000x1, .f32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x64, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x64, .f32⟩
  | .hbm, ⟨72, _⟩ => ⟨S800000x1, .f32⟩
  | .hbm, ⟨73, _⟩ => ⟨S800000x64, .f32⟩
  | .hbm, ⟨74, _⟩ => ⟨S_, .f32⟩
  | .hbm, ⟨75, _⟩ => ⟨S50000x64, .f32⟩
  | .hbm, ⟨76, _⟩ => ⟨S800000x1, .i32⟩
  | .hbm, ⟨77, _⟩ => ⟨S50000x64, .f32⟩
  | .hbm, ⟨78, _⟩ => ⟨S50000x1, .f32⟩
  | .hbm, ⟨79, _⟩ => ⟨S50000x64, .f32⟩
  | .hbm, ⟨80, _⟩ => ⟨S50000x64, .f32⟩
  | .hbm, ⟨81, _⟩ => ⟨S1x64, .f32⟩
  | .hbm, ⟨82, _⟩ => ⟨S50000x64, .f32⟩
  | .hbm, ⟨83, _⟩ => ⟨S1x200000, .i32⟩
  | .hbm, ⟨84, _⟩ => ⟨S200000, .i32⟩
  | .hbm, ⟨85, _⟩ => ⟨S_, .i32⟩
  | .hbm, ⟨86, _⟩ => ⟨S200000, .i32⟩
  | .hbm, ⟨87, _⟩ => ⟨S200000, .i1⟩
  | .hbm, ⟨88, _⟩ => ⟨S_, .i32⟩
  | .hbm, ⟨89, _⟩ => ⟨S200000, .i32⟩
  | .hbm, ⟨90, _⟩ => ⟨S200000, .i32⟩
  | .hbm, ⟨91, _⟩ => ⟨S200000, .i32⟩
  | .hbm, ⟨92, _⟩ => ⟨S200000x1, .i32⟩
  | .hbm, ⟨93, _⟩ => ⟨S200000x64, .f32⟩
  | .hbm, ⟨94, _⟩ => ⟨S1x200000, .i32⟩
  | .hbm, ⟨95, _⟩ => ⟨S200000, .i32⟩
  | .hbm, ⟨96, _⟩ => ⟨S_, .i32⟩
  | .hbm, ⟨97, _⟩ => ⟨S200000, .i32⟩
  | .hbm, ⟨98, _⟩ => ⟨S200000, .i1⟩
  | .hbm, ⟨99, _⟩ => ⟨S_, .i32⟩
  | .hbm, ⟨100, _⟩ => ⟨S200000, .i32⟩
  | .hbm, ⟨101, _⟩ => ⟨S200000, .i32⟩
  | .hbm, ⟨102, _⟩ => ⟨S200000, .i32⟩
  | .hbm, ⟨103, _⟩ => ⟨S200000x1, .i32⟩
  | .hbm, ⟨104, _⟩ => ⟨S200000x64, .f32⟩
  | .hbm, ⟨105, _⟩ => ⟨S200000x1, .f32⟩
  | .hbm, ⟨106, _⟩ => ⟨S200000, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S8000x128, .f32⟩
  | .local _ .vmem, ⟨6, _⟩ => ⟨S8000x128, .f32⟩
  | .local _ .vmem, ⟨7, _⟩ => ⟨S8000x1, .f32⟩
  | .local _ .vmem, ⟨8, _⟩ => ⟨S8000x1, .f32⟩
  | .local _ .vmem, ⟨9, _⟩ => ⟨S8000x128, .f32⟩
  | .local _ .vmem, ⟨10, _⟩ => ⟨S8000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S2000x128, .f32⟩
  | .local _ .vmem, ⟨19, _⟩ => ⟨S2000x128, .f32⟩
  | .local _ .vmem, ⟨20, _⟩ => ⟨S128x64, .f32⟩
  | .local _ .vmem, ⟨21, _⟩ => ⟨S2000x64, .f32⟩
  | .local _ .vmem, ⟨22, _⟩ => ⟨S2000x64, .f32⟩
  | .local _ .vmem, ⟨23, _⟩ => ⟨S8000x64, .f32⟩
  | .local _ .vmem, ⟨24, _⟩ => ⟨S8000x64, .f32⟩
  | .local _ .vmem, ⟨25, _⟩ => ⟨S8000x1, .f32⟩
  | .local _ .vmem, ⟨26, _⟩ => ⟨S8000x1, .f32⟩
  | .local _ .vmem, ⟨27, _⟩ => ⟨S8000x64, .f32⟩
  | .local _ .vmem, ⟨28, _⟩ => ⟨S8000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S8000x64, .f32⟩
  | .local _ .vmem, ⟨37, _⟩ => ⟨S8000x64, .f32⟩
  | .local _ .vmem, ⟨38, _⟩ => ⟨S8000x64, .f32⟩
  | .local _ .vmem, ⟨39, _⟩ => ⟨S8000x64, .f32⟩
  | .local _ .vmem, ⟨40, _⟩ => ⟨S8000x1, .f32⟩
  | .local _ .vmem, ⟨41, _⟩ => ⟨S8000x1, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_8 : Ref sig .tc := ⟨.hbm, 63, rfl⟩
abbrev main_v46 : Ref sig .tc := ⟨.hbm, 64, rfl⟩
abbrev main_v47 : Ref sig .tc := ⟨.hbm, 65, rfl⟩
abbrev main_c_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_c_11 : Ref sig .tc := ⟨.hbm, 85, rfl⟩
abbrev main_v65 : Ref sig .tc := ⟨.hbm, 86, rfl⟩
abbrev main_v66 : Ref sig .tc := ⟨.hbm, 87, rfl⟩
abbrev main_c_12 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_c_13 : Ref sig .tc := ⟨.hbm, 96, rfl⟩
abbrev main_v74 : Ref sig .tc := ⟨.hbm, 97, rfl⟩
abbrev main_v75 : Ref sig .tc := ⟨.hbm, 98, rfl⟩
abbrev main_c_14 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S8000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S8000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  shapeCasts_S800000_S800000x1 : S800000.ShapeCasts S800000x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x128 : S8000x1.Broadcasts S8000x128
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  broadcasts_S8000x1_S8000x64 : S8000x1.Broadcasts S8000x64
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  reduces_S8000x64_S8000 : S8000x64.Reduces [1] S8000
  shapeCasts_S8000_S8000x1 : S8000.ShapeCasts S8000x1
  shapeCasts_S200000x1_S200000 : S200000x1.ShapeCasts S200000
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x64_S2000x64_1_0_0_1_n_n_wf : DotDims.WF S2000x128 S128x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  gather_S50000x64_S200000x1_S200000x64_1_0_n_n_0_1_164_wf : GatherDims.WF S50000x64 S200000x1 S200000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S800000x128.size a
  hwx1_0 : ∀ i : grid1.Coords, EltTy.bits .f32 = 32 ∨ (Rect.block (s := S800000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S800000x1.size a
  hwx1_1 : ∀ i : grid1.Coords, EltTy.bits .f32 = 32 ∨ (Rect.block (s := S800000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x128.size a ≤ S800000x128.size a
  hwx1_2 : ∀ i : grid1.Coords, EltTy.bits .f32 = 32 ∨ (Rect.block (s := S800000x128) S8000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x64.size a ≤ S800000x64.size a
  hwx4_0 : ∀ i : grid4.Coords, EltTy.bits .f32 = 32 ∨ (Rect.block (s := S800000x64) S8000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x1.size a ≤ S800000x1.size a
  hwx4_1 : ∀ i : grid4.Coords, EltTy.bits .f32 = 32 ∨ (Rect.block (s := S800000x1) S8000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x64.size a ≤ S800000x64.size a
  hwx4_2 : ∀ i : grid4.Coords, EltTy.bits .f32 = 32 ∨ (Rect.block (s := S800000x64) S8000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S50000x64.size a
  hwx5_1 : ∀ i : grid5.Coords, EltTy.bits .f32 = 32 ∨ (Rect.block (s := S50000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S50000x64.size a
  hwx5_3 : ∀ i : grid5.Coords, EltTy.bits .f32 = 32 ∨ (Rect.block (s := S50000x64) S5000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8000x64.size a ≤ S200000x64.size a
  hwx6_0 : ∀ i : grid6.Coords, EltTy.bits .f32 = 32 ∨ (Rect.block (s := S200000x64) S8000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S8000x64.size a ≤ S200000x64.size a
  hwx6_1 : ∀ i : grid6.Coords, EltTy.bits .f32 = 32 ∨ (Rect.block (s := S200000x64) S8000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S8000x1.size a ≤ S200000x1.size a
  hwx6_2 : ∀ i : grid6.Coords, EltTy.bits .f32 = 32 ∨ (Rect.block (s := S200000x1) S8000x1.size (cc6_transform_2 i) (hinb6_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def gather_S50000x64_S200000x1_S200000x64_1_0_n_n_0_1_164 : GatherDims S50000x64 S200000x1 S200000x64 where
  offsetDims := [1]
  collapsedSliceDims := [0]
  operandBatchingDims := []
  startIndicesBatchingDims := []
  startIndexMap := [0]
  indexVectorDim := 1
  sliceSizes := ![1, 64]
  wf := gather_S50000x64_S200000x1_S200000x64_1_0_n_n_0_1_164_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v34) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S8000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v39) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v44) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg3) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v52) S8000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v53) S8000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v54) S8000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v57) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v61) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v62) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v71) S8000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v80) S8000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v81) S8000x1.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S50000x256 : Shape := ⟨2, ![50000, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S2x800000 : Shape := ⟨2, ![2, 800000]⟩
abbrev S2x200000 : Shape := ⟨2, ![2, 200000]⟩
abbrev S1x800000 : Shape := ⟨2, ![1, 800000]⟩
abbrev S800000 : Shape := ⟨1, ![800000]⟩
abbrev S50000x128 : Shape := ⟨2, ![50000, 128]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩

abbrev nBuf : Space → Nat
  | .hbm => 147
  | .vmem => 0
  | .smem => 0
  | _ => 0

abbrev hbmTy0_0 (i : Nat) : BufTy := match i % 128 with
  | 0 => ⟨S50000x256, .f32⟩
  | 1 => ⟨S256x128, .f32⟩
  | 2 => ⟨S128, .f32⟩
  | 3 => ⟨S128x64, .f32⟩
  | 4 => ⟨S64, .f32⟩
  | 5 => ⟨S2x800000, .i32⟩
  | 6 => ⟨S2x200000, .i32⟩
  | 7 => ⟨S1x800000, .i32⟩
  | 8 => ⟨S800000, .i32⟩
  | 9 => ⟨S1x800000, .i32⟩
  | 10 => ⟨S800000, .i32⟩
  | 11 => ⟨S50000x128, .f32⟩
  | 12 => ⟨S_, .f32⟩
  | 13 => ⟨S800000, .f32⟩
  | 14 => ⟨S_, .f32⟩
  | 15 => ⟨S50000, .f32⟩
  | 16 => ⟨S800000x1, .i32⟩
  | 17 => ⟨S50000, .f32⟩
  | 18 => ⟨S_, .f32⟩
  | 19 => ⟨S50000, .f32⟩
  | 20 => ⟨S50000, .f32⟩
  | 21 => ⟨S50000, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000, .f32⟩
  | 40 => ⟨S800000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x128, .f32⟩
  | 50 => ⟨S800000x1, .f32⟩
  | 51 => ⟨S800000x128, .f32⟩
  | 52 => ⟨S800000x128, .f32⟩
  | 53 => ⟨S_, .f32⟩
  | 54 => ⟨S50000x128, .f32⟩
  | 55 => ⟨S800000x1, .i32⟩
  | 56 => ⟨S50000x128, .f32⟩
  | 57 => ⟨S50000, .f32⟩
  | 58 => ⟨S50000x1, .f32⟩
  | 59 => ⟨S50000x128, .f32⟩
  | 60 => ⟨S50000x128, .f32⟩
  | 61 => ⟨S50000x128, .f32⟩
  | 62 => ⟨S1x128, .f32⟩
  | 63 => ⟨S50000x128, .f32⟩
  | 64 => ⟨S50000x128, .f32⟩
  | 65 => ⟨S_, .f32⟩
  | 66 => ⟨S50000x128, .f32⟩
  | 67 => ⟨S50000x128, .f32⟩
  | 68 => ⟨S50000x64, .f32⟩
  | 69 => ⟨S_, .f32⟩
  | 70 => ⟨S800000, .f32⟩
  | 71 => ⟨S_, .f32⟩
  | 72 => ⟨S50000, .f32⟩
  | 73 => ⟨S800000x1, .i32⟩
  | 74 => ⟨S50000, .f32⟩
  | 75 => ⟨S_, .f32⟩
  | 76 => ⟨S50000, .f32⟩
  | 77 => ⟨S50000, .f32⟩
  | 78 => ⟨S50000, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000, .f32⟩
  | 97 => ⟨S800000, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x64, .f32⟩
  | 107 => ⟨S800000x1, .f32⟩
  | 108 => ⟨S800000x64, .f32⟩
  | 109 => ⟨S800000x64, .f32⟩
  | 110 => ⟨S_, .f32⟩
  | 111 => ⟨S50000x64, .f32⟩
  | 112 => ⟨S800000x1, .i32⟩
  | 113 => ⟨S50000x64, .f32⟩
  | 114 => ⟨S50000, .f32⟩
  | 115 => ⟨S50000x1, .f32⟩
  | 116 => ⟨S50000x64, .f32⟩
  | 117 => ⟨S50000x64, .f32⟩
  | 118 => ⟨S50000x64, .f32⟩
  | 119 => ⟨S1x64, .f32⟩
  | 120 => ⟨S50000x64, .f32⟩
  | 121 => ⟨S50000x64, .f32⟩
  | 122 => ⟨S1x200000, .i32⟩
  | 123 => ⟨S200000, .i32⟩
  | 124 => ⟨S_, .i32⟩
  | 125 => ⟨S200000, .i32⟩
  | 126 => ⟨S200000, .i1⟩
  | 127 => ⟨S_, .i32⟩
  | _ => ⟨S50000x256, .f32⟩

abbrev hbmTy0_1 (i : Nat) : BufTy := match i % 128 with
  | 0 => ⟨S200000, .i32⟩
  | 1 => ⟨S200000, .i32⟩
  | 2 => ⟨S200000, .i32⟩
  | 3 => ⟨S200000x1, .i32⟩
  | 4 => ⟨S200000x64, .f32⟩
  | 5 => ⟨S1x200000, .i32⟩
  | 6 => ⟨S200000, .i32⟩
  | 7 => ⟨S_, .i32⟩
  | 8 => ⟨S200000, .i32⟩
  | 9 => ⟨S200000, .i1⟩
  | 10 => ⟨S_, .i32⟩
  | 11 => ⟨S200000, .i32⟩
  | 12 => ⟨S200000, .i32⟩
  | 13 => ⟨S200000, .i32⟩
  | 14 => ⟨S200000x1, .i32⟩
  | 15 => ⟨S200000x64, .f32⟩
  | 16 => ⟨S200000x64, .f32⟩
  | 17 => ⟨S_, .f32⟩
  | 18 => ⟨S200000, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call0_cst : Ref sig .tc := ⟨.hbm, 65, rfl⟩
abbrev main_call0_v0 : Ref sig .tc := ⟨.hbm, 66, rfl⟩
abbrev main_v48 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_11 : Ref sig .tc := ⟨.hbm, 79, rfl⟩
abbrev main_v57 : Ref sig .tc := ⟨.hbm, 80, rfl⟩
abbrev main_v58 : Ref sig .tc := ⟨.hbm, 81, rfl⟩
abbrev main_c_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_13 : Ref sig .tc := ⟨.hbm, 88, rfl⟩
abbrev main_v64 : Ref sig .tc := ⟨.hbm, 89, rfl⟩
abbrev main_v65 : Ref sig .tc := ⟨.hbm, 90, rfl⟩
abbrev main_c_14 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_15 : Ref sig .tc := ⟨.hbm, 98, rfl⟩
abbrev main_v72 : Ref sig .tc := ⟨.hbm, 99, rfl⟩
abbrev main_v73 : Ref sig .tc := ⟨.hbm, 100, rfl⟩
abbrev main_c_16 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_17 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_c_18 : Ref sig .tc := ⟨.hbm, 124, rfl⟩
abbrev main_v95 : Ref sig .tc := ⟨.hbm, 125, rfl⟩
abbrev main_v96 : Ref sig .tc := ⟨.hbm, 126, rfl⟩
abbrev main_c_19 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_c_20 : Ref sig .tc := ⟨.hbm, 135, rfl⟩
abbrev main_v104 : Ref sig .tc := ⟨.hbm, 136, rfl⟩
abbrev main_v105 : Ref sig .tc := ⟨.hbm, 137, rfl⟩
abbrev main_c_21 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_cst_22 : Ref sig .tc := ⟨.hbm, 145, rfl⟩
abbrev main_v112 : Ref sig .tc := ⟨.hbm, 146, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  reducesTo_S200000x64_S200000_d1 : S200000x64.ReducesTo [1] S200000
  h_S_ : 0 < S_.numel
  dot_S50000x256_S256x128_S50000x128_1_0_0_1_n_n_wf : DotDims.WF S50000x256 S256x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  gather_S50000x64_S200000x1_S200000x64_1_0_n_n_0_1_164_wf : GatherDims.WF S50000x64 S200000x1 S200000x64 [1] [0] [] [0] [] 1 ![1, 64]

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def gather_S50000x64_S200000x1_S200000x64_1_0_n_n_0_1_164 : GatherDims S50000x64 S200000x1 S200000x64 where
  offsetDims := [1]
  collapsedSliceDims := [0]
  operandBatchingDims := []
  startIndicesBatchingDims := []
  startIndexMap := [0]
  indexVectorDim := 1
  sliceSizes := ![1, 64]
  wf := gather_S50000x64_S200000x1_S200000x64_1_0_n_n_0_1_164_wf

class Facts : Prop extends Facts₀ where

variable [Facts]
-- ==== Proof.Spec.lean ====
/-
  What each of the seven kernel regions computes, as ONE function of the whole arrays it reads, index by index, over
  the extended reals: two affine maps without bias (a row of the left array against a column of the right), two
  scalings of an edge's feature row by that edge's coefficient, two sums of the aggregated messages, the self term and
  the bias row (the first followed by the rectifier), and the inner product of two embedding rows.
-/
import proofs.«168708_j30296699306334_1_alg».proof.KernelIdeal
import Idealize.ShloMosaic.PureOps.Ideal

noncomputable section

namespace Cert.KernelIdeal.Hand

open Cert.KernelIdeal Idealize.ShloMosaic

/-! ## Where an output entry reads its operands -/

/-- Entry (r, k) of the node features, for the output entry i = (r, j) and the summation index k. -/
abbrev featAt256 (i : S50000x128.Idx) (k : Fin 256) : S50000x256.Idx := fun a => match a with
  | ⟨0, _⟩ => ⟨(i 0).val, (i 0).isLt⟩
  | ⟨1, _⟩ => ⟨k.val, k.isLt⟩
/-- Entry (k, j) of the first weight matrix, for the output entry i = (r, j). -/
abbrev weightAt256 (i : S50000x128.Idx) (k : Fin 256) : S256x128.Idx := fun a => match a with
  | ⟨0, _⟩ => ⟨k.val, k.isLt⟩
  | ⟨1, _⟩ => ⟨(i 1).val, (i 1).isLt⟩
/-- Entry (r, k) of the hidden features, for the output entry i = (r, j) of the second layer. -/
abbrev featAt128 (i : S50000x64.Idx) (k : Fin 128) : S50000x128.Idx := fun a => match a with
  | ⟨0, _⟩ => ⟨(i 0).val, (i 0).isLt⟩
  | ⟨1, _⟩ => ⟨k.val, k.isLt⟩
/-- Entry (k, j) of the second weight matrix. -/
abbrev weightAt128 (i : S50000x64.Idx) (k : Fin 128) : S128x64.Idx := fun a => match a with
  | ⟨0, _⟩ => ⟨k.val, k.isLt⟩
  | ⟨1, _⟩ => ⟨(i 1).val, (i 1).isLt⟩
/-- The coefficient of edge e sits at (e, 0) of the one-column array, for every feature column of that edge. -/
abbrev edgeCoef128 (i : S800000x128.Idx) : S800000x1.Idx := fun a => match a with
  | ⟨0, _⟩ => ⟨(i 0).val, (i 0).isLt⟩
  | ⟨1, _⟩ => ⟨0, Nat.one_pos⟩
abbrev edgeCoef64 (i : S800000x64.Idx) : S800000x1.Idx := fun a => match a with
  | ⟨0, _⟩ => ⟨(i 0).val, (i 0).isLt⟩
  | ⟨1, _⟩ => ⟨0, Nat.one_pos⟩
/-- The bias of feature column j sits at (0, j) of the one-row array, for every node. -/
abbrev biasAt128 (i : S50000x128.Idx) : S1x128.Idx := fun a => match a with
  | ⟨0, _⟩ => ⟨0, Nat.one_pos⟩
  | ⟨1, _⟩ => ⟨(i 1).val, (i 1).isLt⟩
abbrev biasAt64 (i : S50000x64.Idx) : S1x64.Idx := fun a => match a with
  | ⟨0, _⟩ => ⟨0, Nat.one_pos⟩
  | ⟨1, _⟩ => ⟨(i 1).val, (i 1).isLt⟩
/-- Column k of the embedding row that pair p selected, for the one-column output entry (p, 0). -/
abbrev pairAt (i : S200000x1.Idx) (k : Fin 64) : S200000x64.Idx := fun a => match a with
  | ⟨0, _⟩ => ⟨(i 0).val, (i 0).isLt⟩
  | ⟨1, _⟩ => ⟨k.val, k.isLt⟩

/-! ## The seven regions' functions -/

/-- Layer 1's affine map: (x W)[r, j] is the sum over k of x[r, k] times W[k, j]. -/
def linear256 (x : Vec Ideal S50000x256 .f32) (w : Vec Ideal S256x128 .f32) : Vec Ideal S50000x128 .f32 :=
  fun i => ∑ k : Fin 256, x (featAt256 i k) * w (weightAt256 i k)
/-- Layer 2's affine map: (h W)[r, j] is the sum over k of h[r, k] times W[k, j]. -/
def linear128 (x : Vec Ideal S50000x128 .f32) (w : Vec Ideal S128x64 .f32) : Vec Ideal S50000x64 .f32 :=
  fun i => ∑ k : Fin 128, x (featAt128 i k) * w (weightAt128 i k)
/-- An edge's gathered feature row times that edge's normalisation coefficient. -/
def scaled128 (h : Vec Ideal S800000x128 .f32) (n : Vec Ideal S800000x1 .f32) : Vec Ideal S800000x128 .f32 :=
  fun i => FloatOps.mulf (F := Ideal) (φ := .f32) (h i) (n (edgeCoef128 i))
def scaled64 (h : Vec Ideal S800000x64 .f32) (n : Vec Ideal S800000x1 .f32) : Vec Ideal S800000x64 .f32 :=
  fun i => FloatOps.mulf (F := Ideal) (φ := .f32) (h i) (n (edgeCoef64 i))
/-- Layer 1's node update: aggregated messages plus the self term plus the bias, then the maximum with zero. -/
def combinedRelu128 (agg self : Vec Ideal S50000x128 .f32) (b : Vec Ideal S1x128 .f32) : Vec Ideal S50000x128 .f32 :=
  fun i => FloatOps.maximumf (F := Ideal) (φ := .f32) (FloatOps.addf (F := Ideal) (φ := .f32) (FloatOps.addf (F := Ideal) (φ := .f32) (agg i) (self i)) (b (biasAt128 i))) (FloatOps.ofBits (F := Ideal) .f32 0x00000000#32)
/-- Layer 2's node update: aggregated messages plus the self term plus the bias. -/
def combined64 (agg self : Vec Ideal S50000x64 .f32) (b : Vec Ideal S1x64 .f32) : Vec Ideal S50000x64 .f32 :=
  fun i => FloatOps.addf (F := Ideal) (φ := .f32) (FloatOps.addf (F := Ideal) (φ := .f32) (agg i) (self i)) (b (biasAt64 i))
/-- The decoder: the inner product of the two embedding rows a pair selected, summed from the zero word. -/
def pairDot (za zb : Vec Ideal S200000x64 .f32) : Vec Ideal S200000x1 .f32 :=
  fun i => FloatOps.ofBits (F := Ideal) .f32 0x00000000#32 + ∑ k : Fin 64, FloatOps.mulf (F := Ideal) (φ := .f32) (za (pairAt i k)) (zb (pairAt i k))

end Cert.KernelIdeal.Hand

end
-- ==== Proof.Keep.lean ====
/-
  A buffer that no operation of a host stretch writes holds after the stretch what it held before it.
-/
import proofs.«168708_j30296699306334_1_alg».proof.Proof.Gen.KernelIdeal.Frame

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

/-- Closes a goal saying that a buffer reads the same after a literal list of host operations as before it, when
    none of the list's operations writes that buffer: each operation's written buffer is another reference. -/
macro "host_keeps" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

end Cert.KernelIdeal.Hand

end
-- ==== Proof.Chain1.lean ====
/-
  Region 0's entry: what the first host stretch (edge endpoints, degrees, their inverse square roots, the edge coefficients and the self coefficients) leaves, as the reference's own stages of the edge list; the arguments it does not write.
-/
import proofs.«168708_j30296699306334_1_alg».proof.Proof.Gen.KernelIdeal.Frame
import proofs.«168708_j30296699306334_1_alg».proof.Proof.Gen.ReferenceIdeal.Read
import proofs.«168708_j30296699306334_1_alg».proof.Proof.Spec
import proofs.«168708_j30296699306334_1_alg».proof.Proof.Keep
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.StableHlo

variable (m : (ℓ : Loc nD τ sig) → Buf (Elt Ideal) ℓ) (ρ : Dev nD → PrngReg) (c : Dev nD)

/-- The edges' source endpoints. -/
theorem at1_src : W1 m ρ c (Proc.devRef .tc main_v1) = Cert.ReferenceIdeal.Read.val_main_v1 (F := Ideal) (m ((c : Thread nD τ).loc main_arg5)) := by
  dsimp only [W1, hostOps0]
  after_results_simp
  rfl
/-- The edges' destination endpoints. -/
theorem at1_dst : W1 m ρ c (Proc.devRef .tc main_v3) = Cert.ReferenceIdeal.Read.val_main_v3 (F := Ideal) (m ((c : Thread nD τ).loc main_arg5)) := by
  dsimp only [W1, hostOps0]
  after_results_simp
  rfl
/-- The edge coefficients: the product of the two endpoints' inverse square-root degrees. -/
theorem at1_norm : W1 m ρ c (Proc.devRef .tc main_v25) = Cert.ReferenceIdeal.Read.val_main_v26 (F := Ideal) (m ((c : Thread nD τ).loc main_arg5)) := by
  dsimp only [W1, hostOps0]
  after_results_simp
  rfl
/-- The self coefficients: the inverse degrees. -/
theorem at1_self : W1 m ρ c (Proc.devRef .tc main_v26) = Cert.ReferenceIdeal.Read.val_main_v40 (F := Ideal) (m ((c : Thread nD τ).loc main_arg5)) := by
  dsimp only [W1, hostOps0]
  after_results_simp
  rfl
/-- Argument 0 is not written. -/
theorem at1_arg0 : W1 m ρ c (Proc.devRef .tc main_arg0) = m ((c : Thread nD τ).loc main_arg0) := by
  dsimp only [W1, hostOps0]
  after_results_simp
/-- Argument 1 is not written. -/
theorem at1_arg1 : W1 m ρ c (Proc.devRef .tc main_arg1) = m ((c : Thread nD τ).loc main_arg1) := by
  dsimp only [W1, hostOps0]
  after_results_simp
/-- Argument 2 is not written. -/
theorem at1_arg2 : W1 m ρ c (Proc.devRef .tc main_arg2) = m ((c : Thread nD τ).loc main_arg2) := by
  dsimp only [W1, hostOps0]
  after_results_simp
/-- Argument 3 is not written. -/
theorem at1_arg3 : W1 m ρ c (Proc.devRef .tc main_arg3) = m ((c : Thread nD τ).loc main_arg3) := by
  dsimp only [W1, hostOps0]
  after_results_simp
/-- Argument 4 is not written. -/
theorem at1_arg4 : W1 m ρ c (Proc.devRef .tc main_arg4) = m ((c : Thread nD τ).loc main_arg4) := by
  dsimp only [W1, hostOps0]
  after_results_simp
/-- Argument 6 is not written. -/
theorem at1_arg6 : W1 m ρ c (Proc.devRef .tc main_arg6) = m ((c : Thread nD τ).loc main_arg6) := by
  dsimp only [W1, hostOps0]
  after_results_simp

end Cert.KernelIdeal.Hand

end
-- ==== Proof.Reg0.lean ====
/-
  Region 0 (layer 1's affine map, 25 row blocks of 2000): the output array ends at linear256 of the two arrays the region read.
-/
import proofs.«168708_j30296699306334_1_alg».proof.Proof.Gen.KernelIdeal.Frame
import proofs.«168708_j30296699306334_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-! ## The body's product at an index -/

/-- A whole-buffer access starts at the zero offsets. -/
private theorem zero_offsets : (![0, 0] : Fin 2 → Nat) = fun _ => 0 := funext fun a => by fin_cases a <;> rfl

/-- The left operand's row coordinate is the output's row. -/
private theorem left_axis0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
/-- The left operand's column coordinate is the summation index. -/
private theorem left_axis1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
/-- The right operand's row coordinate is the summation index. -/
private theorem right_axis0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
/-- The right operand's column coordinate is the output's column. -/
private theorem right_axis1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- Entry (p, k) of a row block, for the block's output entry j = (p, q) and the summation index k. -/
private abbrev rowEntry (j : S2000x128.Idx) (k : Fin 256) : S2000x256.Idx := fun a => match a with
  | ⟨0, _⟩ => ⟨(j 0).val, (j 0).isLt⟩
  | ⟨1, _⟩ => ⟨k.val, k.isLt⟩
/-- Entry (k, q) of the weight matrix, for the block's output entry j = (p, q). -/
private abbrev colEntry (j : S2000x128.Idx) (k : Fin 256) : S256x128.Idx := fun a => match a with
  | ⟨0, _⟩ => ⟨k.val, k.isLt⟩
  | ⟨1, _⟩ => ⟨(j 1).val, (j 1).isLt⟩

/-- Over the extended reals the change of float format is the identity and the product into the zero accumulator is
    the plain sum: the body's result at (p, q) is the sum over k of x0[p, k] times x1[k, q]. -/
private theorem product_apply (x0 : Vec Ideal S2000x256 .f32) (x1 : Vec Ideal S256x128 .f32) (j : S2000x128.Idx) :
    k0_pay1 (F := Ideal) x0 x1 j = ∑ k : Fin 256, x0 (rowEntry j k) * x1 (colEntry j k) := by
  unfold k0_pay1
  show FloatOps.matmul dot_S2000x256_S256x128_S2000x128_1_0_0_1_n_n none (truncf (F := Ideal) .bf16 (show FVec Ideal S2000x256 .f32 from x0) bitsLt_bf16_f32) (truncf (F := Ideal) .bf16 (show FVec Ideal S256x128 .f32 from x1) bitsLt_bf16_f32) (constant (F := Ideal) S2000x128 .f32 0x00000000#32) j = _
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx j ((ValueIdx.contrEquiv1 dot_S2000x256_S256x128_S2000x128_1_0_0_1_n_n 256 rfl rfl).symm k) = rowEntry j k := funext fun a => Fin.ext (by
    match a with
    | ⟨0, _⟩ => exact left_axis0 _ _
    | ⟨1, _⟩ => exact (left_axis1 _ _).trans hk)
  have er : dot_S2000x256_S256x128_S2000x128_1_0_0_1_n_n.rhsIdx j ((ValueIdx.contrEquiv1 dot_S2000x256_S256x128_S2000x128_1_0_0_1_n_n 256 rfl rfl).symm k) = colEntry j k := funext fun a => Fin.ext (by
    match a with
    | ⟨0, _⟩ => exact (right_axis0 _ _).trans hk
    | ⟨1, _⟩ => exact right_axis1 _ _)
  show x0 (dot_S2000x256_S256x128_S2000x128_1_0_0_1_n_n.lhsIdx j ((ValueIdx.contrEquiv1 dot_S2000x256_S256x128_S2000x128_1_0_0_1_n_n 256 rfl rfl).symm k)) * x1 (dot_S2000x256_S256x128_S2000x128_1_0_0_1_n_n.rhsIdx j ((ValueIdx.contrEquiv1 dot_S2000x256_S256x128_S2000x128_1_0_0_1_n_n 256 rfl rfl).symm k)) = _
  rw [el, er]

/-! ## From the blocks to the array -/

/-- The printed index maps over the grid: point t's row block is block t of the left array and of the output, at block
    column 0; the weight window's one block is the whole array. -/
private theorem index_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The left window's block at point t, read at y, is the left array read at y's place in the array. -/
private theorem left_block_apply (c : Dev nD) (t : Fin cfg0.N) (y : S2000x256.Idx) :
    iblk0 V c 0 t y = V c main_arg0 (((cfg0.win 0).blk t).view.emb y) := by
  unfold iblk0; rfl
/-- The weight window's block at point t, read at y, is the weight array read at y's place in the array. -/
private theorem right_block_apply (c : Dev nD) (t : Fin cfg0.N) (y : S256x128.Idx) :
    iblk0 V c 1 t y = V c main_arg1 (((cfg0.win 1).blk t).view.emb y) := by
  unfold iblk0; rfl

/-- Entry (p, k) of point t's row block sits where output entry (p, q) of that point's block reads its left operand. -/
private theorem left_place (t : Fin cfg0.N) (j : S2000x128.Idx) (k : Fin 256) :
    ((cfg0.win 0).blk t).view.emb (rowEntry j k) = featAt256 (((cfg0.win 2).blk t).view.emb j) k := by
  obtain ⟨e0, e1, e2, e3, e4, e5⟩ := index_facts t
  funext a; apply Fin.ext
  match a with
  | ⟨0, _⟩ => show win0_0.index t (0 : Fin 2) * 2000 + 1 * (j 0).val = win0_2.index t (0 : Fin 2) * 2000 + 1 * (j 0).val; omega
  | ⟨1, _⟩ => show win0_0.index t (1 : Fin 2) * 256 + 1 * k.val = k.val; omega
/-- Entry (k, q) of the weight window's one block is entry (k, q) of the weight array. -/
private theorem right_place (t : Fin cfg0.N) (j : S2000x128.Idx) (k : Fin 256) :
    ((cfg0.win 1).blk t).view.emb (colEntry j k) = weightAt256 (((cfg0.win 2).blk t).view.emb j) k := by
  obtain ⟨e0, e1, e2, e3, e4, e5⟩ := index_facts t
  funext a; apply Fin.ext
  match a with
  | ⟨0, _⟩ => show win0_1.index t (0 : Fin 2) * 256 + 1 * k.val = k.val; omega
  | ⟨1, _⟩ => show win0_1.index t (1 : Fin 2) * 128 + 1 * (j 1).val = win0_2.index t (1 : Fin 2) * 128 + 1 * (j 1).val; omega

/-- What point t writes back is block t of the affine map of the two arrays as the region finds them. -/
private theorem flushed_eq (c : Dev nD) (t : Fin cfg0.N) :
    (dat0 V c).flushed 2 t = ((cfg0.win 2).blk t).view.read (Elt Ideal) (linear256 (V c main_arg0) (V c main_arg1)) := by
  show (cfg0.win 2).cut (grid0.coords t) ((dat0 V c).after 2 t) = _
  rw [after0_2]
  unfold out0_2
  rw [View.canon_unit_zero zero_offsets]
  simp only [View.ld_unit_zero (S := S2000x256) zero_offsets, View.ld_unit_zero (S := S256x128) zero_offsets]
  funext j
  show k0_pay1 (iblk0 V c 0 t) (iblk0 V c 1 t) j = linear256 (V c main_arg0) (V c main_arg1) (((cfg0.win 2).blk t).view.emb j)
  rw [product_apply]
  unfold linear256
  refine Finset.sum_congr rfl fun k _ => ?_
  rw [left_block_apply, right_block_apply, left_place, right_place]

/-- An index of the output array is in point t's block iff each coordinate is in the block's range on its axis. -/
private theorem mem_block (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v27).slice (win0_2.rect t)).set ↔ _
  rw [View.set_slice_whole, Rect.mem_set_unit]
  exact Iff.rfl

/-- Row r of the output lies in the block of point r / 2000: the 25 row blocks cover the array. -/
private theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  obtain ⟨e0, e1, e2, e3, e4, e5⟩ := index_facts t
  have e4' : win0_2.index t (0 : Fin 2) = (i 0).val / 2000 := e4
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- Region 0 (layer 1's affine map, 25 row blocks of 2000): the output array ends at linear256 of the two arrays the region read. -/
theorem final0 (c : Dev nD) :
    (dat0 V c).arrAt 2 cfg0.N = linear256 (V c main_arg0) (V c main_arg1) :=
  (dat0 V c).arrAt_eq_of_cover 2 (linear256 (V c main_arg0) (V c main_arg1)) (fun t _ => flushed_eq V c t) covered

end Cert.KernelIdeal.Hand

end
-- ==== Proof.Reg1.lean ====
/-
  Region 1 (layer 1's edge scaling, 100 row blocks of 8000): the output array ends at scaled128 of the gathered rows and the coefficient column.
-/
import proofs.«168708_j30296699306334_1_alg».proof.Proof.Gen.KernelIdeal.Frame
import proofs.«168708_j30296699306334_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-! ## The body at an index -/

/-- The body loads and stores its whole buffers: both offsets are zero. -/
private theorem zero_offsets1 : (![0, 0] : Fin 2 → Nat) = fun _ => 0 := funext fun a => by fin_cases a <;> rfl

/-- The coefficient of row p of a block sits at (p, 0) of the one-column block. -/
private abbrev rowCoef1 (j : S8000x128.Idx) : S8000x1.Idx := fun a => match a with
  | ⟨0, _⟩ => ⟨(j 0).val, (j 0).isLt⟩
  | ⟨1, _⟩ => ⟨0, Nat.one_pos⟩

/-- The stored value at (p, q): the feature entry (p, q) times the coefficient of row p; the one-column block is
    spread along the columns, and the two casts are to the same shape. -/
private theorem scale_payload1_apply (x0 : Vec Ideal S8000x128 .f32) (x1 : Vec Ideal S8000x1 .f32) (j : S8000x128.Idx) :
    k1_pay1 x0 x1 j = FloatOps.mulf (F := Ideal) (φ := .f32) (x0 j) (x1 (rowCoef1 j)) := by
  show FloatOps.mulf (F := Ideal) (φ := .f32) (shapeCast S8000x128 x0 shapeCasts_S8000x128_S8000x128 j)
      (broadcastTo S8000x128 (shapeCast S8000x1 x1 shapeCasts_S8000x1_S8000x1) broadcasts_S8000x1_S8000x128 j) = _
  rw [shapeCast_self, shapeCast_self]
  refine congrArg (FloatOps.mulf (F := Ideal) (φ := .f32) (x0 j)) ?_
  refine broadcastTo_apply x1 broadcasts_S8000x1_S8000x128 j (rowCoef1 j) fun a => ?_
  match a with
  | ⟨0, _⟩ => rfl
  | ⟨1, _⟩ => rfl

/-! ## What a grid point writes back -/

/-- The printed index maps over the 100 grid points: all three windows sit at row block t and column block 0. -/
private theorem row_block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The feature block at point t is read off the gathered rows at the index the block names. -/
private theorem feature_block1_apply (c : Dev nD) (t : Fin cfg1.N) (y : S8000x128.Idx) :
    iblk1 V c 0 t y = V c main_v34 (((cfg1.win 0).blk t).view.emb y) := rfl

/-- The coefficient block at point t is read off the coefficient column at the index the block names. -/
private theorem coef_block1_apply (c : Dev nD) (t : Fin cfg1.N) (y : S8000x1.Idx) :
    iblk1 V c 1 t y = V c main_v35 (((cfg1.win 1).blk t).view.emb y) := rfl

/-- The feature window's block and the output window's block name the same array index. -/
private theorem feature_emb1 (t : Fin cfg1.N) (j : S8000x128.Idx) :
    ((cfg1.win 0).blk t).view.emb j = ((cfg1.win 2).blk t).view.emb j := by
  obtain ⟨e0, e1, e2, e3, e4, e5⟩ := row_block_index1 t
  funext a; apply Fin.ext
  match a with
  | ⟨0, _⟩ => show win1_0.index t (0 : Fin 2) * 8000 + 1 * (j 0).val = win1_2.index t (0 : Fin 2) * 8000 + 1 * (j 0).val; omega
  | ⟨1, _⟩ => show win1_0.index t (1 : Fin 2) * 128 + 1 * (j 1).val = win1_2.index t (1 : Fin 2) * 128 + 1 * (j 1).val; omega

/-- The coefficient window's block at (p, 0) names the coefficient of the output block's array row. -/
private theorem coef_emb1 (t : Fin cfg1.N) (j : S8000x128.Idx) :
    ((cfg1.win 1).blk t).view.emb (rowCoef1 j) = edgeCoef128 (((cfg1.win 2).blk t).view.emb j) := by
  obtain ⟨e0, e1, e2, e3, e4, e5⟩ := row_block_index1 t
  funext a; apply Fin.ext
  match a with
  | ⟨0, _⟩ => show win1_1.index t (0 : Fin 2) * 8000 + 1 * (j 0).val = win1_2.index t (0 : Fin 2) * 8000 + 1 * (j 0).val; omega
  | ⟨1, _⟩ => show win1_1.index t (1 : Fin 2) * 1 + 1 * 0 = 0; omega

/-- What point t writes back is block t of the scaled array. -/
private theorem flushed_scaled128 (c : Dev nD) (t : Fin cfg1.N) :
    (dat1 V c).flushed 2 t = ((cfg1.win 2).blk t).view.read (Elt Ideal) (scaled128 (V c main_v34) (V c main_v35)) := by
  show (cfg1.win 2).cut (grid1.coords t) ((dat1 V c).after 2 t) = _
  rw [after1_2]
  unfold out1_2
  rw [View.canon_unit_zero zero_offsets1]
  simp only [View.ld_unit_zero (S := S8000x128) zero_offsets1, View.ld_unit_zero (S := S8000x1) zero_offsets1]
  funext j
  show k1_pay1 (iblk1 V c 0 t) (iblk1 V c 1 t) j
    = FloatOps.mulf (F := Ideal) (φ := .f32) (V c main_v34 (((cfg1.win 2).blk t).view.emb j))
        (V c main_v35 (edgeCoef128 (((cfg1.win 2).blk t).view.emb j)))
  refine (scale_payload1_apply _ _ j).trans ?_
  rw [feature_block1_apply, coef_block1_apply, feature_emb1, coef_emb1]

/-! ## The blocks cover the array -/

/-- An index of the array is in point t's block iff each coordinate is in the block's range on its axis. -/
private theorem mem_out_block1 (t : Fin cfg1.N) (i : S800000x128.Idx) :
    i ∈ ((cfg1.win 2).blk t).view.set ↔ ∀ a : Fin 2, win1_2.index t a * S8000x128.size a ≤ (i a).val
      ∧ (i a).val < win1_2.index t a * S8000x128.size a + S8000x128.size a := by
  show i ∈ ((View.whole main_v36).slice (win1_2.rect t)).set ↔ _
  rw [View.set_slice_whole, Rect.mem_set_unit]
  exact Iff.rfl

/-- Row r of the array lies in the block of point r / 8000. -/
private theorem out_blocks_cover1 (i : S800000x128.Idx) :
    ∃ t : Fin cfg1.N, (cfg1.win 2).flush t = true ∧ i ∈ ((cfg1.win 2).blk t).view.set := by
  have hi0 : (i 0).val < 800000 := (i 0).isLt
  have hi1 : (i 1).val < 128 := (i 1).isLt
  have hN : cfg1.N = 100 := N_1
  obtain ⟨t, ht⟩ : ∃ t : Fin cfg1.N, t.val = (i 0).val / 8000 := ⟨⟨(i 0).val / 8000, by rw [hN]; omega⟩, rfl⟩
  obtain ⟨e0, e1, e2, e3, e4, e5⟩ := row_block_index1 t
  refine ⟨t, flush1_2 t, ?_⟩
  rw [mem_out_block1]
  intro a
  match a with
  | ⟨0, _⟩ => show win1_2.index t (0 : Fin 2) * 8000 ≤ (i 0).val ∧ (i 0).val < win1_2.index t (0 : Fin 2) * 8000 + 8000; omega
  | ⟨1, _⟩ => show win1_2.index t (1 : Fin 2) * 128 ≤ (i 1).val ∧ (i 1).val < win1_2.index t (1 : Fin 2) * 128 + 128; omega

/-- Region 1 (layer 1's edge scaling, 100 row blocks of 8000): the output array ends at scaled128 of the gathered rows and the coefficient column. -/
theorem final1 (c : Dev nD) :
    (dat1 V c).arrAt 2 cfg1.N = scaled128 (V c main_v34) (V c main_v35) :=
  (dat1 V c).arrAt_eq_of_cover 2 (scaled128 (V c main_v34) (V c main_v35))
    (fun t _ => flushed_scaled128 V c t) out_blocks_cover1

end Cert.KernelIdeal.Hand

end
-- ==== Proof.Reg2.lean ====
/-
  Region 2 (layer 1's node update, 10 row blocks of 5000): the output array ends at combinedRelu128 of the aggregate, the self term and the bias row.
-/
import proofs.«168708_j30296699306334_1_alg».proof.Proof.Gen.KernelIdeal.Frame
import proofs.«168708_j30296699306334_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen

variable (V : (c : Dev nD) → (b : Ref sig .tc) → Buf (Elt Ideal) ((c : Thread nD τ).loc b))

/-- The whole-buffer rectangle's offsets are zero on both axes. -/
private theorem zeroOffsets : (![0, 0] : Fin 2 → Nat) = fun _ => 0 := funext fun a => by fin_cases a <;> rfl

/-- The body at one entry of its block: the sum of the two row blocks' entries and of the bias row's entry of that
    column, then the maximum with zero. -/
private theorem nodeUpdateRelu_apply (x0 x1 : Vec Ideal S5000x128 .f32) (x2 : Vec Ideal S1x128 .f32) (p : Fin 5000) (q : Fin 128) :
    k2_pay1 x0 x1 x2 (ix2 p q)
      = FloatOps.maximumf (F := Ideal) (φ := .f32) (FloatOps.addf (F := Ideal) (φ := .f32) (FloatOps.addf (F := Ideal) (φ := .f32) (x0 (ix2 p q)) (x1 (ix2 p q))) (x2 (ix2 (0 : Fin 1) q))) (FloatOps.ofBits (F := Ideal) .f32 0x00000000#32) := by
  unfold k2_pay1
  rw [shapeCast_self, shapeCast_self, shapeCast_self]
  show FloatOps.maximumf (F := Ideal) (φ := .f32) (FloatOps.addf (F := Ideal) (φ := .f32) (FloatOps.addf (F := Ideal) (φ := .f32) (x0 (ix2 p q)) (x1 (ix2 p q))) (broadcastTo S5000x128 x2 broadcasts_S1x128_S5000x128 (ix2 p q))) _ = _
  rw [broadcastTo_1b_ab_apply]
  rfl

/-- The printed index maps over the grid: the two row windows and the output window sit at row block t, column block 0;
    the bias window at block (0, 0). -/
private theorem blockIndices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The aggregate window's block at point t, read at y, is the aggregate read where the output block's entry y sits. -/
private theorem aggBlock_apply (c : Dev nD) (t : Fin cfg2.N) (y : S5000x128.Idx) :
    iblk2 V c 0 t y = V c main_v39 (((cfg2.win 3).blk t).view.emb y) := by
  unfold iblk2
  show V c main_v39 (((cfg2.win 0).blk t).view.emb y) = _
  obtain ⟨e0, e1, -, -, -, -, e6, e7⟩ := blockIndices t
  refine congrArg (V c main_v39) (funext fun a => Fin.ext ?_)
  match a with
  | ⟨0, _⟩ => show win2_0.index t (0 : Fin 2) * 5000 + 1 * (y 0).val = win2_3.index t (0 : Fin 2) * 5000 + 1 * (y 0).val; omega
  | ⟨1, _⟩ => show win2_0.index t (1 : Fin 2) * 128 + 1 * (y 1).val = win2_3.index t (1 : Fin 2) * 128 + 1 * (y 1).val; omega

/-- The self-term window's block at point t, read at y, is the self term read where the output block's entry y sits. -/
private theorem selfBlock_apply (c : Dev nD) (t : Fin cfg2.N) (y : S5000x128.Idx) :
    iblk2 V c 1 t y = V c main_v42 (((cfg2.win 3).blk t).view.emb y) := by
  unfold iblk2
  show V c main_v42 (((cfg2.win 1).blk t).view.emb y) = _
  obtain ⟨-, -, e2, e3, -, -, e6, e7⟩ := blockIndices t
  refine congrArg (V c main_v42) (funext fun a => Fin.ext ?_)
  match a with
  | ⟨0, _⟩ => show win2_1.index t (0 : Fin 2) * 5000 + 1 * (y 0).val = win2_3.index t (0 : Fin 2) * 5000 + 1 * (y 0).val; omega
  | ⟨1, _⟩ => show win2_1.index t (1 : Fin 2) * 128 + 1 * (y 1).val = win2_3.index t (1 : Fin 2) * 128 + 1 * (y 1).val; omega

/-- The bias window's one block, read at column q of its one row, is the bias row read at the column of the output
    block's entry (p, q), whatever the row p. -/
private theorem biasBlock_apply (c : Dev nD) (t : Fin cfg2.N) (p : Fin 5000) (q : Fin 128) :
    iblk2 V c 2 t (ix2 (0 : Fin 1) q) = V c main_v43 (biasAt128 (((cfg2.win 3).blk t).view.emb (ix2 p q))) := by
  unfold iblk2
  show V c main_v43 (((cfg2.win 2).blk t).view.emb (ix2 (0 : Fin 1) q)) = _
  obtain ⟨-, -, -, -, e4, e5, e6, e7⟩ := blockIndices t
  refine congrArg (V c main_v43) (funext fun a => Fin.ext ?_)
  match a with
  | ⟨0, _⟩ => show win2_2.index t (0 : Fin 2) * 1 + 1 * 0 = 0; omega
  | ⟨1, _⟩ => show win2_2.index t (1 : Fin 2) * 128 + 1 * q.val = win2_3.index t (1 : Fin 2) * 128 + 1 * q.val; omega

/-- What point t writes back is block t of the node update of the three arrays as the region finds them. -/
private theorem flushed_nodeUpdateRelu (c : Dev nD) (t : Fin cfg2.N) :
    (dat2 V c).flushed 3 t = ((cfg2.win 3).blk t).view.read (Elt Ideal) (combinedRelu128 (V c main_v39) (V c main_v42) (V c main_v43)) := by
  show (cfg2.win 3).cut (grid2.coords t) ((dat2 V c).after 3 t) = _
  rw [after2_3]
  unfold out2_3
  rw [View.canon_unit_zero zeroOffsets]
  simp only [View.ld_unit_zero (S := S5000x128) zeroOffsets, View.ld_unit_zero (S := S1x128) zeroOffsets]
  funext j
  obtain ⟨p, q, rfl⟩ : ∃ (p : Fin 5000) (q : Fin 128), j = ix2 p q := ⟨j 0, j 1, eq_ix2 j⟩
  show k2_pay1 (iblk2 V c 0 t) (iblk2 V c 1 t) (iblk2 V c 2 t) (ix2 p q) = _
  rw [nodeUpdateRelu_apply, aggBlock_apply, selfBlock_apply, biasBlock_apply V c t p q]
  rfl

/-- An entry of the output array is in point t's block iff each coordinate is in the block's range on its axis. -/
private theorem mem_outBlock (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v44).slice (win2_3.rect t)).set ↔ _
  rw [View.set_slice_whole, Rect.mem_set_unit]
  exact Iff.rfl

/-- Row r of the output lies in the block of point r / 5000: the ten row blocks cover the array. -/
private theorem outBlocks_cover (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have ht : (i 0).val / 5000 < cfg2.N := by rw [show cfg2.N = 10 from N_2]; omega
  obtain ⟨-, -, -, -, -, -, e6, e7⟩ := blockIndices ⟨(i 0).val / 5000, ht⟩
  refine ⟨⟨(i 0).val / 5000, ht⟩, flush2_3 _, ?_⟩
  rw [mem_outBlock]
  intro a
  match a with
  | ⟨0, _⟩ =>
    show win2_3.index ⟨(i 0).val / 5000, ht⟩ (0 : Fin 2) * 5000 ≤ (i 0).val ∧ (i 0).val < win2_3.index ⟨(i 0).val / 5000, ht⟩ (0 : Fin 2) * 5000 + 5000
    rw [e6]
    show (i 0).val / 5000 * 5000 ≤ (i 0).val ∧ (i 0).val < (i 0).val / 5000 * 5000 + 5000
    omega
  | ⟨1, _⟩ =>
    show win2_3.index ⟨(i 0).val / 5000, ht⟩ (1 : Fin 2) * 128 ≤ (i 1).val ∧ (i 1).val < win2_3.index ⟨(i 0).val / 5000, ht⟩ (1 : Fin 2) * 128 + 128
    rw [e7]
    omega

/-- Region 2 (layer 1's node update, 10 row blocks of 5000): the output array ends at combinedRelu128 of the aggregate, the self term and the bias row. -/
theorem final2 (c : Dev nD) :
    (dat2 V c).arrAt 3 cfg2.N = combinedRelu128 (V c main_v39) (V c main_v42) (V c main_v43) :=
  (dat2 V c).arrAt_eq_of_cover 3 (combinedRelu128 (V c main_v39) (V c main_v42) (V c main_v43))
    (fun t _ => flushed_nodeUpdateRelu V c t) outBlocks_cover

end Cert.KernelIdeal.Hand

end
-- ==== Proof.Chain2.lean ====
/-
  Layer 1, from region 0's entry to region 3's entry: the affine map, the gather of source rows, the scaling, the scatter onto destinations, the self term, and the node update with the rectifier, each as the reference's own stage of the arguments; what is carried on to layer 2.
-/
import proofs.«168708_j30296699306334_1_alg».proof.Proof.Gen.KernelIdeal.Frame
import proofs.«168708_j30296699306334_1_alg».proof.Proof.Gen.ReferenceIdeal.Read
import proofs.«168708_j30296699306334_1_alg».proof.Proof.Spec
import proofs.«168708_j30296699306334_1_alg».proof.Proof.Keep
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import proofs.«168708_j30296699306334_1_alg».proof.Proof.Chain1
import proofs.«168708_j30296699306334_1_alg».proof.Proof.Reg0
import proofs.«168708_j30296699306334_1_alg».proof.Proof.Reg1
import proofs.«168708_j30296699306334_1_alg».proof.Proof.Reg2

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.StableHlo

variable (m : (ℓ : Loc nD τ sig) → Buf (Elt Ideal) ℓ) (ρ : Dev nD → PrngReg) (c : Dev nD)

/-! ## The regions' functions are the reference's stages -/

/-- The row-by-column sums are the reference's contraction of the same two arrays. -/
theorem linear256_eq (x : Vec Ideal S50000x256 .f32) (w : Vec Ideal S256x128 .f32) :
    linear256 x w = Cert.ReferenceIdeal.Read.val_main_v4 (F := Ideal) x w := by
  funext i
  rw [Cert.ReferenceIdeal.Read.val_main_v4_apply]
  rfl

/-! ## Region 0 and what it leaves alone -/

/-- The first affine map's output. -/
theorem at2_lin : W2 m ρ c (Proc.devRef .tc main_v27) = Cert.ReferenceIdeal.Read.val_main_v4 (F := Ideal) (m ((c : Thread nD τ).loc main_arg0)) (m ((c : Thread nD τ).loc main_arg1)) := by
  refine (W2_arr m ρ c 2).trans ?_
  rw [final0]
  show linear256 (W1 m ρ c (Proc.devRef .tc main_arg0)) (W1 m ρ c (Proc.devRef .tc main_arg1)) = _
  rw [at1_arg0, at1_arg1, linear256_eq]

theorem at2_src : W2 m ρ c (Proc.devRef .tc main_v1) = Cert.ReferenceIdeal.Read.val_main_v1 (F := Ideal) (m ((c : Thread nD τ).loc main_arg5)) :=
  (W2_of_ne m ρ c main_v1 (by decide)).trans (at1_src m ρ c)
theorem at2_dst : W2 m ρ c (Proc.devRef .tc main_v3) = Cert.ReferenceIdeal.Read.val_main_v3 (F := Ideal) (m ((c : Thread nD τ).loc main_arg5)) :=
  (W2_of_ne m ρ c main_v3 (by decide)).trans (at1_dst m ρ c)
theorem at2_norm : W2 m ρ c (Proc.devRef .tc main_v25) = Cert.ReferenceIdeal.Read.val_main_v26 (F := Ideal) (m ((c : Thread nD τ).loc main_arg5)) :=
  (W2_of_ne m ρ c main_v25 (by decide)).trans (at1_norm m ρ c)
theorem at2_self : W2 m ρ c (Proc.devRef .tc main_v26) = Cert.ReferenceIdeal.Read.val_main_v40 (F := Ideal) (m ((c : Thread nD τ).loc main_arg5)) :=
  (W2_of_ne m ρ c main_v26 (by decide)).trans (at1_self m ρ c)
theorem at2_arg2 : W2 m ρ c (Proc.devRef .tc main_arg2) = m ((c : Thread nD τ).loc main_arg2) :=
  (W2_of_ne m ρ c main_arg2 (by decide)).trans (at1_arg2 m ρ c)
theorem at2_arg3 : W2 m ρ c (Proc.devRef .tc main_arg3) = m ((c : Thread nD τ).loc main_arg3) :=
  (W2_of_ne m ρ c main_arg3 (by decide)).trans (at1_arg3 m ρ c)
theorem at2_arg4 : W2 m ρ c (Proc.devRef .tc main_arg4) = m ((c : Thread nD τ).loc main_arg4) :=
  (W2_of_ne m ρ c main_arg4 (by decide)).trans (at1_arg4 m ρ c)
theorem at2_arg6 : W2 m ρ c (Proc.devRef .tc main_arg6) = m ((c : Thread nD τ).loc main_arg6) :=
  (W2_of_ne m ρ c main_arg6 (by decide)).trans (at1_arg6 m ρ c)

/-! ## The gather of source rows and the coefficient column -/

/-- Each edge's source row of the affine map's output. -/
theorem at3_rows : W3 m ρ c (Proc.devRef .tc main_v34) = Cert.ReferenceIdeal.Read.val_main_v33 (F := Ideal) (m ((c : Thread nD τ).loc main_arg0)) (m ((c : Thread nD τ).loc main_arg1)) (m ((c : Thread nD τ).loc main_arg5)) := by
  dsimp only [W3, hostOps1]
  after_results_simp
  rw [at2_lin, at2_src]
  rfl

/-- The coefficient column at (e, 0) is edge e's coefficient. -/
theorem at3_coef (i : S800000x128.Idx) :
    (W3 m ρ c (Proc.devRef .tc main_v35) : Vec Ideal S800000x1 .f32) (edgeCoef128 i) = Cert.ReferenceIdeal.Read.val_main_v35 (F := Ideal) (m ((c : Thread nD τ).loc main_arg5)) i := by
  dsimp only [W3, hostOps1]
  after_results_simp
  rw [at2_norm, Cert.ReferenceIdeal.Read.val_main_v35_apply, Cert.ReferenceIdeal.Read.val_main_v34_apply]
  generalize Cert.ReferenceIdeal.Read.val_main_v26 (F := Ideal) (m ((c : Thread nD τ).loc main_arg5)) = y
  exact shapeCast_apply y _ _ _ (by
    show ((⟨1, ![800000]⟩ : Shape).rowMajor (Cert.ReferenceIdeal.Read.idx_main_v34 (Cert.ReferenceIdeal.Read.idx_main_v35 i))).val
      = ((⟨2, ![800000, 1]⟩ : Shape).rowMajor (edgeCoef128 i)).val
    rw [Shape.rowMajor_val_one, Shape.rowMajor_val_two]
    show (i 0).val = (i 0).val * 1 + 0
    omega)

theorem at3_src : W3 m ρ c (Proc.devRef .tc main_v1) = Cert.ReferenceIdeal.Read.val_main_v1 (F := Ideal) (m ((c : Thread nD τ).loc main_arg5)) := by
  dsimp only [W3, hostOps1]
  after_results_simp
  exact at2_src m ρ c
theorem at3_dst : W3 m ρ c (Proc.devRef .tc main_v3) = Cert.ReferenceIdeal.Read.val_main_v3 (F := Ideal) (m ((c : Thread nD τ).loc main_arg5)) := by
  dsimp only [W3, hostOps1]
  after_results_simp
  exact at2_dst m ρ c
theorem at3_norm : W3 m ρ c (Proc.devRef .tc main_v25) = Cert.ReferenceIdeal.Read.val_main_v26 (F := Ideal) (m ((c : Thread nD τ).loc main_arg5)) := by
  dsimp only [W3, hostOps1]
  after_results_simp
  exact at2_norm m ρ c
theorem at3_self : W3 m ρ c (Proc.devRef .tc main_v26) = Cert.ReferenceIdeal.Read.val_main_v40 (F := Ideal) (m ((c : Thread nD τ).loc main_arg5)) := by
  dsimp only [W3, hostOps1]
  after_results_simp
  exact at2_self m ρ c
theorem at3_lin : W3 m ρ c (Proc.devRef .tc main_v27) = Cert.ReferenceIdeal.Read.val_main_v4 (F := Ideal) (m ((c : Thread nD τ).loc main_arg0)) (m ((c : Thread nD τ).loc main_arg1)) := by
  dsimp only [W3, hostOps1]
  after_results_simp
  exact at2_lin m ρ c
theorem at3_arg2 : W3 m ρ c (Proc.devRef .tc main_arg2) = m ((c : Thread nD τ).loc main_arg2) := by
  dsimp only [W3, hostOps1]
  after_results_simp
  exact at2_arg2 m ρ c
theorem at3_arg3 : W3 m ρ c (Proc.devRef .tc main_arg3) = m ((c : Thread nD τ).loc main_arg3) := by
  dsimp only [W3, hostOps1]
  after_results_simp
  exact at2_arg3 m ρ c
theorem at3_arg4 : W3 m ρ c (Proc.devRef .tc main_arg4) = m ((c : Thread nD τ).loc main_arg4) := by
  dsimp only [W3, hostOps1]
  after_results_simp
  exact at2_arg4 m ρ c
theorem at3_arg6 : W3 m ρ c (Proc.devRef .tc main_arg6) = m ((c : Thread nD τ).loc main_arg6) := by
  dsimp only [W3, hostOps1]
  after_results_simp
  exact at2_arg6 m ρ c

/-! ## Region 1: the scaling -/

/-- Row e of the gathered rows times edge e's coefficient is the reference's product of the gathered rows with the
    coefficients spread over the columns. -/
theorem at4_msg : W4 m ρ c (Proc.devRef .tc main_v36) = Cert.ReferenceIdeal.Read.val_main_v36 (F := Ideal) (m ((c : Thread nD τ).loc main_arg0)) (m ((c : Thread nD τ).loc main_arg1)) (m ((c : Thread nD τ).loc main_arg5)) := by
  refine (W4_arr m ρ c 2).trans ?_
  rw [final1]
  show scaled128 (W3 m ρ c (Proc.devRef .tc main_v34)) (W3 m ρ c (Proc.devRef .tc main_v35)) = _
  rw [at3_rows]
  funext i
  rw [Cert.ReferenceIdeal.Read.val_main_v36_apply, ← at3_coef m ρ c i]
  rfl

theorem at4_src : W4 m ρ c (Proc.devRef .tc main_v1) = Cert.ReferenceIdeal.Read.val_main_v1 (F := Ideal) (m ((c : Thread nD τ).loc main_arg5)) :=
  (W4_of_ne m ρ c main_v1 (by decide)).trans (at3_src m ρ c)
theorem at4_dst : W4 m ρ c (Proc.devRef .tc main_v3) = Cert.ReferenceIdeal.Read.val_main_v3 (F := Ideal) (m ((c : Thread nD τ).loc main_arg5)) :=
  (W4_of_ne m ρ c main_v3 (by decide)).trans (at3_dst m ρ c)
theorem at4_norm : W4 m ρ c (Proc.devRef .tc main_v25) = Cert.ReferenceIdeal.Read.val_main_v26 (F := Ideal) (m ((c : Thread nD τ).loc main_arg5)) :=
  (W4_of_ne m ρ c main_v25 (by decide)).trans (at3_norm m ρ c)
theorem at4_self : W4 m ρ c (Proc.devRef .tc main_v26) = Cert.ReferenceIdeal.Read.val_main_v40 (F := Ideal) (m ((c : Thread nD τ).loc main_arg5)) :=
  (W4_of_ne m ρ c main_v26 (by decide)).trans (at3_self m ρ c)
theorem at4_lin : W4 m ρ c (Proc.devRef .tc main_v27) = Cert.ReferenceIdeal.Read.val_main_v4 (F := Ideal) (m ((c : Thread nD τ).loc main_arg0)) (m ((c : Thread nD τ).loc main_arg1)) :=
  (W4_of_ne m ρ c main_v27 (by decide)).trans (at3_lin m ρ c)
theorem at4_arg2 : W4 m ρ c (Proc.devRef .tc main_arg2) = m ((c : Thread nD τ).loc main_arg2) :=
  (W4_of_ne m ρ c main_arg2 (by decide)).trans (at3_arg2 m ρ c)
theorem at4_arg3 : W4 m ρ c (Proc.devRef .tc main_arg3) = m ((c : Thread nD τ).loc main_arg3) :=
  (W4_of_ne m ρ c main_arg3 (by decide)).trans (at3_arg3 m ρ c)
theorem at4_arg4 : W4 m ρ c (Proc.devRef .tc main_arg4) = m ((c : Thread nD τ).loc main_arg4) :=
  (W4_of_ne m ρ c main_arg4 (by decide)).trans (at3_arg4 m ρ c)
theorem at4_arg6 : W4 m ρ c (Proc.devRef .tc main_arg6) = m ((c : Thread nD τ).loc main_arg6) :=
  (W4_of_ne m ρ c main_arg6 (by decide)).trans (at3_arg6 m ρ c)

/-! ## The scatter onto destinations, the self term, the bias row -/

/-- The messages summed at their destination nodes. -/
theorem at5_agg : W5 m ρ c (Proc.devRef .tc main_v39) = Cert.ReferenceIdeal.Read.val_main_v39 (F := Ideal) (m ((c : Thread nD τ).loc main_arg0)) (m ((c : Thread nD τ).loc main_arg1)) (m ((c : Thread nD τ).loc main_arg5)) := by
  dsimp only [W5, hostOps2]
  after_results_simp
  rw [at4_msg, at4_dst]
  rfl

/-- The self term: the inverse degree times the node's own row. -/
theorem at5_selfterm : W5 m ρ c (Proc.devRef .tc main_v42) = Cert.ReferenceIdeal.Read.val_main_v43 (F := Ideal) (m ((c : Thread nD τ).loc main_arg0)) (m ((c : Thread nD τ).loc main_arg1)) (m ((c : Thread nD τ).loc main_arg5)) := by
  dsimp only [W5, hostOps2]
  after_results_simp
  rw [at4_self, at4_lin]
  rfl

/-- The bias row at (0, j) is the bias of column j. -/
theorem at5_bias (i : S50000x128.Idx) :
    (W5 m ρ c (Proc.devRef .tc main_v43) : Vec Ideal S1x128 .f32) (biasAt128 i) = Cert.ReferenceIdeal.Read.val_main_v46 (F := Ideal) (m ((c : Thread nD τ).loc main_arg2)) i := by
  dsimp only [W5, hostOps2]
  after_results_simp
  rw [at4_arg2, Cert.ReferenceIdeal.Read.val_main_v46_apply, Cert.ReferenceIdeal.Read.val_main_v45_apply]
  generalize (m ((c : Thread nD τ).loc main_arg2)) = y
  exact shapeCast_apply y _ _ _ (by
    show ((⟨1, ![128]⟩ : Shape).rowMajor (Cert.ReferenceIdeal.Read.idx_main_v45 (Cert.ReferenceIdeal.Read.idx_main_v46 i))).val
      = ((⟨2, ![1, 128]⟩ : Shape).rowMajor (biasAt128 i)).val
    rw [Shape.rowMajor_val_one, Shape.rowMajor_val_two]
    show (i 1).val = 0 * 128 + (i 1).val
    omega)

theorem at5_src : W5 m ρ c (Proc.devRef .tc main_v1) = Cert.ReferenceIdeal.Read.val_main_v1 (F := Ideal) (m ((c : Thread nD τ).loc main_arg5)) := by
  dsimp only [W5, hostOps2]
  after_results_simp
  exact at4_src m ρ c
theorem at5_dst : W5 m ρ c (Proc.devRef .tc main_v3) = Cert.ReferenceIdeal.Read.val_main_v3 (F := Ideal) (m ((c : Thread nD τ).loc main_arg5)) := by
  dsimp only [W5, hostOps2]
  after_results_simp
  exact at4_dst m ρ c
theorem at5_norm : W5 m ρ c (Proc.devRef .tc main_v25) = Cert.ReferenceIdeal.Read.val_main_v26 (F := Ideal) (m ((c : Thread nD τ).loc main_arg5)) := by
  dsimp only [W5, hostOps2]
  after_results_simp
  exact at4_norm m ρ c
theorem at5_self : W5 m ρ c (Proc.devRef .tc main_v26) = Cert.ReferenceIdeal.Read.val_main_v40 (F := Ideal) (m ((c : Thread nD τ).loc main_arg5)) := by
  dsimp only [W5, hostOps2]
  after_results_simp
  exact at4_self m ρ c
theorem at5_arg3 : W5 m ρ c (Proc.devRef .tc main_arg3) = m ((c : Thread nD τ).loc main_arg3) := by
  dsimp only [W5, hostOps2]
  after_results_simp
  exact at4_arg3 m ρ c
theorem at5_arg4 : W5 m ρ c (Proc.devRef .tc main_arg4) = m ((c : Thread nD τ).loc main_arg4) := by
  dsimp only [W5, hostOps2]
  after_results_simp
  exact at4_arg4 m ρ c
theorem at5_arg6 : W5 m ρ c (Proc.devRef .tc main_arg6) = m ((c : Thread nD τ).loc main_arg6) := by
  dsimp only [W5, hostOps2]
  after_results_simp
  exact at4_arg6 m ρ c

/-! ## Region 2: the node update with the rectifier -/

/-- Layer 1's output, after the rectifier. -/
theorem at6_hidden : W6 m ρ c (Proc.devRef .tc main_v44) = Cert.ReferenceIdeal.Read.val_main_v48 (F := Ideal) (m ((c : Thread nD τ).loc main_arg0)) (m ((c : Thread nD τ).loc main_arg1)) (m ((c : Thread nD τ).loc main_arg2)) (m ((c : Thread nD τ).loc main_arg5)) := by
  refine (W6_arr m ρ c 3).trans ?_
  rw [final2]
  show combinedRelu128 (W5 m ρ c (Proc.devRef .tc main_v39)) (W5 m ρ c (Proc.devRef .tc main_v42)) (W5 m ρ c (Proc.devRef .tc main_v43)) = _
  rw [at5_agg, at5_selfterm]
  funext i
  rw [Cert.ReferenceIdeal.Read.val_main_v48_apply, Cert.ReferenceIdeal.Read.val_main_v47_apply, Cert.ReferenceIdeal.Read.val_main_v44_apply, Cert.ReferenceIdeal.Read.val_main_call0_v0_apply,
    Cert.ReferenceIdeal.Read.val_main_call0_cst_apply, ← at5_bias m ρ c i]
  rfl

theorem at6_src : W6 m ρ c (Proc.devRef .tc main_v1) = Cert.ReferenceIdeal.Read.val_main_v1 (F := Ideal) (m ((c : Thread nD τ).loc main_arg5)) :=
  (W6_of_ne m ρ c main_v1 (by decide)).trans (at5_src m ρ c)
theorem at6_dst : W6 m ρ c (Proc.devRef .tc main_v3) = Cert.ReferenceIdeal.Read.val_main_v3 (F := Ideal) (m ((c : Thread nD τ).loc main_arg5)) :=
  (W6_of_ne m ρ c main_v3 (by decide)).trans (at5_dst m ρ c)
theorem at6_norm : W6 m ρ c (Proc.devRef .tc main_v25) = Cert.ReferenceIdeal.Read.val_main_v26 (F := Ideal) (m ((c : Thread nD τ).loc main_arg5)) :=
  (W6_of_ne m ρ c main_v25 (by decide)).trans (at5_norm m ρ c)
theorem at6_self : W6 m ρ c (Proc.devRef .tc main_v26) = Cert.ReferenceIdeal.Read.val_main_v40 (F := Ideal) (m ((c : Thread nD τ).loc main_arg5)) :=
  (W6_of_ne m ρ c main_v26 (by decide)).trans (at5_self m ρ c)
theorem at6_arg3 : W6 m ρ c (Proc.devRef .tc main_arg3) = m ((c : Thread nD τ).loc main_arg3) :=
  (W6_of_ne m ρ c main_arg3 (by decide)).trans (at5_arg3 m ρ c)
theorem at6_arg4 : W6 m ρ c (Proc.devRef .tc main_arg4) = m ((c : Thread nD τ).loc main_arg4) :=
  (W6_of_ne m ρ c main_arg4 (by decide)).trans (at5_arg4 m ρ c)
theorem at6_arg6 : W6 m ρ c (Proc.devRef .tc main_arg6) = m ((c : Thread nD τ).loc main_arg6) :=
  (W6_of_ne m ρ c main_arg6 (by decide)).trans (at5_arg6 m ρ c)

end Cert.KernelIdeal.Hand

end
-- ==== Proof.Reg3.lean ====
/-
  Region 3 (layer 2's affine map, 25 row blocks of 2000): the output array ends at linear128 of the two arrays the region read.
-/
import proofs.«168708_j30296699306334_1_alg».proof.Proof.Gen.KernelIdeal.Frame
import proofs.«168708_j30296699306334_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-! ## The body's product at an index -/

/-- A whole-buffer access starts at the zero offsets. -/
private theorem zero_offsets : (![0, 0] : Fin 2 → Nat) = fun _ => 0 := funext fun a => by fin_cases a <;> rfl

/-- The left operand's row coordinate is the output's row. -/
private theorem left_axis0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
/-- The left operand's column coordinate is the summation index. -/
private theorem left_axis1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
/-- The right operand's row coordinate is the summation index. -/
private theorem right_axis0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
/-- The right operand's column coordinate is the output's column. -/
private theorem right_axis1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- Entry (p, k) of a row block, for the block's output entry j = (p, q) and the summation index k. -/
private abbrev rowEntry (j : S2000x64.Idx) (k : Fin 128) : S2000x128.Idx := fun a => match a with
  | ⟨0, _⟩ => ⟨(j 0).val, (j 0).isLt⟩
  | ⟨1, _⟩ => ⟨k.val, k.isLt⟩
/-- Entry (k, q) of the weight matrix, for the block's output entry j = (p, q). -/
private abbrev colEntry (j : S2000x64.Idx) (k : Fin 128) : S128x64.Idx := fun a => match a with
  | ⟨0, _⟩ => ⟨k.val, k.isLt⟩
  | ⟨1, _⟩ => ⟨(j 1).val, (j 1).isLt⟩

/-- Over the extended reals the cast of the left block to its own shape and the change of float format are the identity, and the product into the zero accumulator is
    the plain sum: the body's result at (p, q) is the sum over k of x0[p, k] times x1[k, q]. -/
private theorem product_apply (x0 : Vec Ideal S2000x128 .f32) (x1 : Vec Ideal S128x64 .f32) (j : S2000x64.Idx) :
    k3_pay1 (F := Ideal) x0 x1 j = ∑ k : Fin 128, x0 (rowEntry j k) * x1 (colEntry j k) := by
  unfold k3_pay1
  show FloatOps.matmul dot_S2000x128_S128x64_S2000x64_1_0_0_1_n_n none (truncf (F := Ideal) .bf16 (shapeCast S2000x128 (show FVec Ideal S2000x128 .f32 from x0) shapeCasts_S2000x128_S2000x128) bitsLt_bf16_f32) (truncf (F := Ideal) .bf16 (show FVec Ideal S128x64 .f32 from x1) bitsLt_bf16_f32) (constant (F := Ideal) S2000x64 .f32 0x00000000#32) j = _
  rw [shapeCast_self, Ideal.matmul_constant_zero_apply, ← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx j ((ValueIdx.contrEquiv1 dot_S2000x128_S128x64_S2000x64_1_0_0_1_n_n 128 rfl rfl).symm k) = rowEntry j k := funext fun a => Fin.ext (by
    match a with
    | ⟨0, _⟩ => exact left_axis0 _ _
    | ⟨1, _⟩ => exact (left_axis1 _ _).trans hk)
  have er : dot_S2000x128_S128x64_S2000x64_1_0_0_1_n_n.rhsIdx j ((ValueIdx.contrEquiv1 dot_S2000x128_S128x64_S2000x64_1_0_0_1_n_n 128 rfl rfl).symm k) = colEntry j k := funext fun a => Fin.ext (by
    match a with
    | ⟨0, _⟩ => exact (right_axis0 _ _).trans hk
    | ⟨1, _⟩ => exact right_axis1 _ _)
  show x0 (dot_S2000x128_S128x64_S2000x64_1_0_0_1_n_n.lhsIdx j ((ValueIdx.contrEquiv1 dot_S2000x128_S128x64_S2000x64_1_0_0_1_n_n 128 rfl rfl).symm k)) * x1 (dot_S2000x128_S128x64_S2000x64_1_0_0_1_n_n.rhsIdx j ((ValueIdx.contrEquiv1 dot_S2000x128_S128x64_S2000x64_1_0_0_1_n_n 128 rfl rfl).symm k)) = _
  rw [el, er]

/-! ## From the blocks to the array -/

/-- The printed index maps over the grid: point t's row block is block t of the left array and of the output, at block
    column 0; the weight window's one block is the whole array. -/
private theorem index_facts : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- The left window's block at point t, read at y, is the left array read at y's place in the array. -/
private theorem left_block_apply (c : Dev nD) (t : Fin cfg3.N) (y : S2000x128.Idx) :
    iblk3 V c 0 t y = V c main_v44 (((cfg3.win 0).blk t).view.emb y) := by
  unfold iblk3; rfl
/-- The weight window's block at point t, read at y, is the weight array read at y's place in the array. -/
private theorem right_block_apply (c : Dev nD) (t : Fin cfg3.N) (y : S128x64.Idx) :
    iblk3 V c 1 t y = V c main_arg3 (((cfg3.win 1).blk t).view.emb y) := by
  unfold iblk3; rfl

/-- Entry (p, k) of point t's row block sits where output entry (p, q) of that point's block reads its left operand. -/
private theorem left_place (t : Fin cfg3.N) (j : S2000x64.Idx) (k : Fin 128) :
    ((cfg3.win 0).blk t).view.emb (rowEntry j k) = featAt128 (((cfg3.win 2).blk t).view.emb j) k := by
  obtain ⟨e0, e1, e2, e3, e4, e5⟩ := index_facts t
  funext a; apply Fin.ext
  match a with
  | ⟨0, _⟩ => show win3_0.index t (0 : Fin 2) * 2000 + 1 * (j 0).val = win3_2.index t (0 : Fin 2) * 2000 + 1 * (j 0).val; omega
  | ⟨1, _⟩ => show win3_0.index t (1 : Fin 2) * 128 + 1 * k.val = k.val; omega
/-- Entry (k, q) of the weight window's one block is entry (k, q) of the weight array. -/
private theorem right_place (t : Fin cfg3.N) (j : S2000x64.Idx) (k : Fin 128) :
    ((cfg3.win 1).blk t).view.emb (colEntry j k) = weightAt128 (((cfg3.win 2).blk t).view.emb j) k := by
  obtain ⟨e0, e1, e2, e3, e4, e5⟩ := index_facts t
  funext a; apply Fin.ext
  match a with
  | ⟨0, _⟩ => show win3_1.index t (0 : Fin 2) * 128 + 1 * k.val = k.val; omega
  | ⟨1, _⟩ => show win3_1.index t (1 : Fin 2) * 64 + 1 * (j 1).val = win3_2.index t (1 : Fin 2) * 64 + 1 * (j 1).val; omega

/-- What point t writes back is block t of the affine map of the two arrays as the region finds them. -/
private theorem flushed_eq (c : Dev nD) (t : Fin cfg3.N) :
    (dat3 V c).flushed 2 t = ((cfg3.win 2).blk t).view.read (Elt Ideal) (linear128 (V c main_v44) (V c main_arg3)) := by
  show (cfg3.win 2).cut (grid3.coords t) ((dat3 V c).after 2 t) = _
  rw [after3_2]
  unfold out3_2
  rw [View.canon_unit_zero zero_offsets]
  simp only [View.ld_unit_zero (S := S2000x128) zero_offsets, View.ld_unit_zero (S := S128x64) zero_offsets]
  funext j
  show k3_pay1 (iblk3 V c 0 t) (iblk3 V c 1 t) j = linear128 (V c main_v44) (V c main_arg3) (((cfg3.win 2).blk t).view.emb j)
  rw [product_apply]
  unfold linear128
  refine Finset.sum_congr rfl fun k _ => ?_
  rw [left_block_apply, right_block_apply, left_place, right_place]

/-- An index of the output array is in point t's block iff each coordinate is in the block's range on its axis. -/
private theorem mem_block (t : Fin cfg3.N) (i : S50000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v45).slice (win3_2.rect t)).set ↔ _
  rw [View.set_slice_whole, Rect.mem_set_unit]
  exact Iff.rfl

/-- Row r of the output lies in the block of point r / 2000: the 25 row blocks cover the array. -/
private theorem covered (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  have hN : cfg3.N = 25 := N_3
  let t : Fin cfg3.N := ⟨(i 0).val / 2000, by rw [hN]; omega⟩
  obtain ⟨e0, e1, e2, e3, e4, e5⟩ := index_facts t
  have e4' : win3_2.index t (0 : Fin 2) = (i 0).val / 2000 := e4
  refine ⟨t, flush3_2 t, ?_⟩
  rw [mem_block]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 64 ≤ (i 1).val ∧ (i 1).val < win3_2.index t (1 : Fin 2) * 64 + 64; omega

/-- Region 3 (layer 2's affine map, 25 row blocks of 2000): the output array ends at linear128 of the two arrays the region read. -/
theorem final3 (c : Dev nD) :
    (dat3 V c).arrAt 2 cfg3.N = linear128 (V c main_v44) (V c main_arg3) :=
  (dat3 V c).arrAt_eq_of_cover 2 (linear128 (V c main_v44) (V c main_arg3)) (fun t _ => flushed_eq V c t) covered

end Cert.KernelIdeal.Hand

end
-- ==== Proof.Reg4.lean ====
/-
  Region 4 (layer 2's edge scaling, 100 row blocks of 8000): the output array ends at scaled64 of the gathered rows and the coefficient column.
-/
import proofs.«168708_j30296699306334_1_alg».proof.Proof.Gen.KernelIdeal.Frame
import proofs.«168708_j30296699306334_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-! ## The body at an index -/

/-- The body loads and stores its whole buffers: both offsets are zero. -/
private theorem zero_offsets4 : (![0, 0] : Fin 2 → Nat) = fun _ => 0 := funext fun a => by fin_cases a <;> rfl

/-- The coefficient of row p of a block sits at (p, 0) of the one-column block. -/
private abbrev rowCoef4 (j : S8000x64.Idx) : S8000x1.Idx := fun a => match a with
  | ⟨0, _⟩ => ⟨(j 0).val, (j 0).isLt⟩
  | ⟨1, _⟩ => ⟨0, Nat.one_pos⟩

/-- The stored value at (p, q): the feature entry (p, q) times the coefficient of row p; the one-column block is
    spread along the columns, and the two casts are to the same shape. -/
private theorem scale_payload4_apply (x0 : Vec Ideal S8000x64 .f32) (x1 : Vec Ideal S8000x1 .f32) (j : S8000x64.Idx) :
    k4_pay1 x0 x1 j = FloatOps.mulf (F := Ideal) (φ := .f32) (x0 j) (x1 (rowCoef4 j)) := by
  show FloatOps.mulf (F := Ideal) (φ := .f32) (shapeCast S8000x64 x0 shapeCasts_S8000x64_S8000x64 j)
      (broadcastTo S8000x64 (shapeCast S8000x1 x1 shapeCasts_S8000x1_S8000x1) broadcasts_S8000x1_S8000x64 j) = _
  rw [shapeCast_self, shapeCast_self]
  refine congrArg (FloatOps.mulf (F := Ideal) (φ := .f32) (x0 j)) ?_
  refine broadcastTo_apply x1 broadcasts_S8000x1_S8000x64 j (rowCoef4 j) fun a => ?_
  match a with
  | ⟨0, _⟩ => rfl
  | ⟨1, _⟩ => rfl

/-! ## What a grid point writes back -/

/-- The printed index maps over the 100 grid points: all three windows sit at row block t and column block 0. -/
private theorem row_block_index4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- The feature block at point t is read off the gathered rows at the index the block names. -/
private theorem feature_block4_apply (c : Dev nD) (t : Fin cfg4.N) (y : S8000x64.Idx) :
    iblk4 V c 0 t y = V c main_v52 (((cfg4.win 0).blk t).view.emb y) := rfl

/-- The coefficient block at point t is read off the coefficient column at the index the block names. -/
private theorem coef_block4_apply (c : Dev nD) (t : Fin cfg4.N) (y : S8000x1.Idx) :
    iblk4 V c 1 t y = V c main_v53 (((cfg4.win 1).blk t).view.emb y) := rfl

/-- The feature window's block and the output window's block name the same array index. -/
private theorem feature_emb4 (t : Fin cfg4.N) (j : S8000x64.Idx) :
    ((cfg4.win 0).blk t).view.emb j = ((cfg4.win 2).blk t).view.emb j := by
  obtain ⟨e0, e1, e2, e3, e4, e5⟩ := row_block_index4 t
  funext a; apply Fin.ext
  match a with
  | ⟨0, _⟩ => show win4_0.index t (0 : Fin 2) * 8000 + 1 * (j 0).val = win4_2.index t (0 : Fin 2) * 8000 + 1 * (j 0).val; omega
  | ⟨1, _⟩ => show win4_0.index t (1 : Fin 2) * 64 + 1 * (j 1).val = win4_2.index t (1 : Fin 2) * 64 + 1 * (j 1).val; omega

/-- The coefficient window's block at (p, 0) names the coefficient of the output block's array row. -/
private theorem coef_emb4 (t : Fin cfg4.N) (j : S8000x64.Idx) :
    ((cfg4.win 1).blk t).view.emb (rowCoef4 j) = edgeCoef64 (((cfg4.win 2).blk t).view.emb j) := by
  obtain ⟨e0, e1, e2, e3, e4, e5⟩ := row_block_index4 t
  funext a; apply Fin.ext
  match a with
  | ⟨0, _⟩ => show win4_1.index t (0 : Fin 2) * 8000 + 1 * (j 0).val = win4_2.index t (0 : Fin 2) * 8000 + 1 * (j 0).val; omega
  | ⟨1, _⟩ => show win4_1.index t (1 : Fin 2) * 1 + 1 * 0 = 0; omega

/-- What point t writes back is block t of the scaled array. -/
private theorem flushed_scaled64 (c : Dev nD) (t : Fin cfg4.N) :
    (dat4 V c).flushed 2 t = ((cfg4.win 2).blk t).view.read (Elt Ideal) (scaled64 (V c main_v52) (V c main_v53)) := by
  show (cfg4.win 2).cut (grid4.coords t) ((dat4 V c).after 2 t) = _
  rw [after4_2]
  unfold out4_2
  rw [View.canon_unit_zero zero_offsets4]
  simp only [View.ld_unit_zero (S := S8000x64) zero_offsets4, View.ld_unit_zero (S := S8000x1) zero_offsets4]
  funext j
  show k4_pay1 (iblk4 V c 0 t) (iblk4 V c 1 t) j
    = FloatOps.mulf (F := Ideal) (φ := .f32) (V c main_v52 (((cfg4.win 2).blk t).view.emb j))
        (V c main_v53 (edgeCoef64 (((cfg4.win 2).blk t).view.emb j)))
  refine (scale_payload4_apply _ _ j).trans ?_
  rw [feature_block4_apply, coef_block4_apply, feature_emb4, coef_emb4]

/-! ## The blocks cover the array -/

/-- An index of the array is in point t's block iff each coordinate is in the block's range on its axis. -/
private theorem mem_out_block4 (t : Fin cfg4.N) (i : S800000x64.Idx) :
    i ∈ ((cfg4.win 2).blk t).view.set ↔ ∀ a : Fin 2, win4_2.index t a * S8000x64.size a ≤ (i a).val
      ∧ (i a).val < win4_2.index t a * S8000x64.size a + S8000x64.size a := by
  show i ∈ ((View.whole main_v54).slice (win4_2.rect t)).set ↔ _
  rw [View.set_slice_whole, Rect.mem_set_unit]
  exact Iff.rfl

/-- Row r of the array lies in the block of point r / 8000. -/
private theorem out_blocks_cover4 (i : S800000x64.Idx) :
    ∃ t : Fin cfg4.N, (cfg4.win 2).flush t = true ∧ i ∈ ((cfg4.win 2).blk t).view.set := by
  have hi0 : (i 0).val < 800000 := (i 0).isLt
  have hi1 : (i 1).val < 64 := (i 1).isLt
  have hN : cfg4.N = 100 := N_4
  obtain ⟨t, ht⟩ : ∃ t : Fin cfg4.N, t.val = (i 0).val / 8000 := ⟨⟨(i 0).val / 8000, by rw [hN]; omega⟩, rfl⟩
  obtain ⟨e0, e1, e2, e3, e4, e5⟩ := row_block_index4 t
  refine ⟨t, flush4_2 t, ?_⟩
  rw [mem_out_block4]
  intro a
  match a with
  | ⟨0, _⟩ => show win4_2.index t (0 : Fin 2) * 8000 ≤ (i 0).val ∧ (i 0).val < win4_2.index t (0 : Fin 2) * 8000 + 8000; omega
  | ⟨1, _⟩ => show win4_2.index t (1 : Fin 2) * 64 ≤ (i 1).val ∧ (i 1).val < win4_2.index t (1 : Fin 2) * 64 + 64; omega

/-- Region 4 (layer 2's edge scaling, 100 row blocks of 8000): the output array ends at scaled64 of the gathered rows and the coefficient column. -/
theorem final4 (c : Dev nD) :
    (dat4 V c).arrAt 2 cfg4.N = scaled64 (V c main_v52) (V c main_v53) :=
  (dat4 V c).arrAt_eq_of_cover 2 (scaled64 (V c main_v52) (V c main_v53))
    (fun t _ => flushed_scaled64 V c t) out_blocks_cover4

end Cert.KernelIdeal.Hand

end
-- ==== Proof.Reg5.lean ====
/-
  Region 5 (layer 2's node update, 10 row blocks of 5000): the output array ends at combined64 of the aggregate, the self term and the bias row.
-/
import proofs.«168708_j30296699306334_1_alg».proof.Proof.Gen.KernelIdeal.Frame
import proofs.«168708_j30296699306334_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen

variable (V : (c : Dev nD) → (b : Ref sig .tc) → Buf (Elt Ideal) ((c : Thread nD τ).loc b))

/-- The whole-buffer rectangle's offsets are zero on both axes. -/
private theorem zeroOffsets : (![0, 0] : Fin 2 → Nat) = fun _ => 0 := funext fun a => by fin_cases a <;> rfl

/-- The body at one entry of its block: the sum of the two row blocks' entries and of the bias row's entry of that
    column. -/
private theorem nodeUpdate_apply (x0 x1 : Vec Ideal S5000x64 .f32) (x2 : Vec Ideal S1x64 .f32) (p : Fin 5000) (q : Fin 64) :
    k5_pay1 x0 x1 x2 (ix2 p q)
      = FloatOps.addf (F := Ideal) (φ := .f32) (FloatOps.addf (F := Ideal) (φ := .f32) (x0 (ix2 p q)) (x1 (ix2 p q))) (x2 (ix2 (0 : Fin 1) q)) := by
  unfold k5_pay1
  rw [shapeCast_self, shapeCast_self, shapeCast_self]
  show FloatOps.addf (F := Ideal) (φ := .f32) (FloatOps.addf (F := Ideal) (φ := .f32) (x0 (ix2 p q)) (x1 (ix2 p q))) (broadcastTo S5000x64 x2 broadcasts_S1x64_S5000x64 (ix2 p q)) = _
  rw [broadcastTo_1b_ab_apply]

/-- The printed index maps over the grid: the two row windows and the output window sit at row block t, column block 0;
    the bias window at block (0, 0). -/
private theorem blockIndices : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The aggregate window's block at point t, read at y, is the aggregate read where the output block's entry y sits. -/
private theorem aggBlock_apply (c : Dev nD) (t : Fin cfg5.N) (y : S5000x64.Idx) :
    iblk5 V c 0 t y = V c main_v57 (((cfg5.win 3).blk t).view.emb y) := by
  unfold iblk5
  show V c main_v57 (((cfg5.win 0).blk t).view.emb y) = _
  obtain ⟨e0, e1, -, -, -, -, e6, e7⟩ := blockIndices t
  refine congrArg (V c main_v57) (funext fun a => Fin.ext ?_)
  match a with
  | ⟨0, _⟩ => show win5_0.index t (0 : Fin 2) * 5000 + 1 * (y 0).val = win5_3.index t (0 : Fin 2) * 5000 + 1 * (y 0).val; omega
  | ⟨1, _⟩ => show win5_0.index t (1 : Fin 2) * 64 + 1 * (y 1).val = win5_3.index t (1 : Fin 2) * 64 + 1 * (y 1).val; omega

/-- The self-term window's block at point t, read at y, is the self term read where the output block's entry y sits. -/
private theorem selfBlock_apply (c : Dev nD) (t : Fin cfg5.N) (y : S5000x64.Idx) :
    iblk5 V c 1 t y = V c main_v60 (((cfg5.win 3).blk t).view.emb y) := by
  unfold iblk5
  show V c main_v60 (((cfg5.win 1).blk t).view.emb y) = _
  obtain ⟨-, -, e2, e3, -, -, e6, e7⟩ := blockIndices t
  refine congrArg (V c main_v60) (funext fun a => Fin.ext ?_)
  match a with
  | ⟨0, _⟩ => show win5_1.index t (0 : Fin 2) * 5000 + 1 * (y 0).val = win5_3.index t (0 : Fin 2) * 5000 + 1 * (y 0).val; omega
  | ⟨1, _⟩ => show win5_1.index t (1 : Fin 2) * 64 + 1 * (y 1).val = win5_3.index t (1 : Fin 2) * 64 + 1 * (y 1).val; omega

/-- The bias window's one block, read at column q of its one row, is the bias row read at the column of the output
    block's entry (p, q), whatever the row p. -/
private theorem biasBlock_apply (c : Dev nD) (t : Fin cfg5.N) (p : Fin 5000) (q : Fin 64) :
    iblk5 V c 2 t (ix2 (0 : Fin 1) q) = V c main_v61 (biasAt64 (((cfg5.win 3).blk t).view.emb (ix2 p q))) := by
  unfold iblk5
  show V c main_v61 (((cfg5.win 2).blk t).view.emb (ix2 (0 : Fin 1) q)) = _
  obtain ⟨-, -, -, -, e4, e5, e6, e7⟩ := blockIndices t
  refine congrArg (V c main_v61) (funext fun a => Fin.ext ?_)
  match a with
  | ⟨0, _⟩ => show win5_2.index t (0 : Fin 2) * 1 + 1 * 0 = 0; omega
  | ⟨1, _⟩ => show win5_2.index t (1 : Fin 2) * 64 + 1 * q.val = win5_3.index t (1 : Fin 2) * 64 + 1 * q.val; omega

/-- What point t writes back is block t of the node update of the three arrays as the region finds them. -/
private theorem flushed_nodeUpdate (c : Dev nD) (t : Fin cfg5.N) :
    (dat5 V c).flushed 3 t = ((cfg5.win 3).blk t).view.read (Elt Ideal) (combined64 (V c main_v57) (V c main_v60) (V c main_v61)) := by
  show (cfg5.win 3).cut (grid5.coords t) ((dat5 V c).after 3 t) = _
  rw [after5_3]
  unfold out5_3
  rw [View.canon_unit_zero zeroOffsets]
  simp only [View.ld_unit_zero (S := S5000x64) zeroOffsets, View.ld_unit_zero (S := S1x64) zeroOffsets]
  funext j
  obtain ⟨p, q, rfl⟩ : ∃ (p : Fin 5000) (q : Fin 64), j = ix2 p q := ⟨j 0, j 1, eq_ix2 j⟩
  show k5_pay1 (iblk5 V c 0 t) (iblk5 V c 1 t) (iblk5 V c 2 t) (ix2 p q) = _
  rw [nodeUpdate_apply, aggBlock_apply, selfBlock_apply, biasBlock_apply V c t p q]
  rfl

/-- An entry of the output array is in point t's block iff each coordinate is in the block's range on its axis. -/
private theorem mem_outBlock (t : Fin cfg5.N) (i : S50000x64.Idx) :
    i ∈ ((cfg5.win 3).blk t).view.set ↔ ∀ a : Fin 2, win5_3.index t a * S5000x64.size a ≤ (i a).val ∧ (i a).val < win5_3.index t a * S5000x64.size a + S5000x64.size a := by
  show i ∈ ((View.whole main_v62).slice (win5_3.rect t)).set ↔ _
  rw [View.set_slice_whole, Rect.mem_set_unit]
  exact Iff.rfl

/-- Row r of the output lies in the block of point r / 5000: the ten row blocks cover the array. -/
private theorem outBlocks_cover (i : S50000x64.Idx) :
    ∃ t : Fin cfg5.N, (cfg5.win 3).flush t = true ∧ i ∈ ((cfg5.win 3).blk t).view.set := by
  have hi0 : (i 0).val < 50000 := (i 0).isLt
  have hi1 : (i 1).val < 64 := (i 1).isLt
  have ht : (i 0).val / 5000 < cfg5.N := by rw [show cfg5.N = 10 from N_5]; omega
  obtain ⟨-, -, -, -, -, -, e6, e7⟩ := blockIndices ⟨(i 0).val / 5000, ht⟩
  refine ⟨⟨(i 0).val / 5000, ht⟩, flush5_3 _, ?_⟩
  rw [mem_outBlock]
  intro a
  match a with
  | ⟨0, _⟩ =>
    show win5_3.index ⟨(i 0).val / 5000, ht⟩ (0 : Fin 2) * 5000 ≤ (i 0).val ∧ (i 0).val < win5_3.index ⟨(i 0).val / 5000, ht⟩ (0 : Fin 2) * 5000 + 5000
    rw [e6]
    show (i 0).val / 5000 * 5000 ≤ (i 0).val ∧ (i 0).val < (i 0).val / 5000 * 5000 + 5000
    omega
  | ⟨1, _⟩ =>
    show win5_3.index ⟨(i 0).val / 5000, ht⟩ (1 : Fin 2) * 64 ≤ (i 1).val ∧ (i 1).val < win5_3.index ⟨(i 0).val / 5000, ht⟩ (1 : Fin 2) * 64 + 64
    rw [e7]
    omega

/-- Region 5 (layer 2's node update, 10 row blocks of 5000): the output array ends at combined64 of the aggregate, the self term and the bias row. -/
theorem final5 (c : Dev nD) :
    (dat5 V c).arrAt 3 cfg5.N = combined64 (V c main_v57) (V c main_v60) (V c main_v61) :=
  (dat5 V c).arrAt_eq_of_cover 3 (combined64 (V c main_v57) (V c main_v60) (V c main_v61))
    (fun t _ => flushed_nodeUpdate V c t) outBlocks_cover

end Cert.KernelIdeal.Hand

end
-- ==== Proof.Chain3.lean ====
/-
  Layer 2, from region 3's entry to the decoder's host stretch: the affine map, the gather, the scaling, the scatter, the self term and the node update, each as the reference's own stage of the arguments (the reference recomputes the degrees and coefficients for this layer: the same terms).
-/
import proofs.«168708_j30296699306334_1_alg».proof.Proof.Gen.KernelIdeal.Frame
import proofs.«168708_j30296699306334_1_alg».proof.Proof.Gen.ReferenceIdeal.Read
import proofs.«168708_j30296699306334_1_alg».proof.Proof.Spec
import proofs.«168708_j30296699306334_1_alg».proof.Proof.Keep
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import proofs.«168708_j30296699306334_1_alg».proof.Proof.Chain2
import proofs.«168708_j30296699306334_1_alg».proof.Proof.Reg3
import proofs.«168708_j30296699306334_1_alg».proof.Proof.Reg4
import proofs.«168708_j30296699306334_1_alg».proof.Proof.Reg5

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.StableHlo

variable (m : (ℓ : Loc nD τ sig) → Buf (Elt Ideal) ℓ) (ρ : Dev nD → PrngReg) (c : Dev nD)

/-! ## The reference computes the degrees and coefficients once per layer: the same terms -/

theorem norm_again (x5 : (⟨Cert.ReferenceIdeal.S2x800000, .i32⟩ : BufTy).Contents (Elt Ideal)) :
    Cert.ReferenceIdeal.Read.val_main_v71 (F := Ideal) x5 = Cert.ReferenceIdeal.Read.val_main_v26 (F := Ideal) x5 := rfl
theorem self_again (x5 : (⟨Cert.ReferenceIdeal.S2x800000, .i32⟩ : BufTy).Contents (Elt Ideal)) :
    Cert.ReferenceIdeal.Read.val_main_v85 (F := Ideal) x5 = Cert.ReferenceIdeal.Read.val_main_v40 (F := Ideal) x5 := rfl

/-! ## Region 3: the second affine map -/

/-- The second affine map's output: the reference's contraction of layer 1's output with the second weights. -/
theorem at7_lin2 : W7 m ρ c (Proc.devRef .tc main_v45) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  refine (W7_arr m ρ c 2).trans ?_
  rw [final3]
  show linear128 (W6 m ρ c (Proc.devRef .tc main_v44)) (W6 m ρ c (Proc.devRef .tc main_arg3)) = _
  rw [at6_hidden, at6_arg3]
  funext i
  rw [Cert.ReferenceIdeal.Read.val_main_v49_apply]
  rfl

theorem at7_src : W7 m ρ c (Proc.devRef .tc main_v1) = Cert.ReferenceIdeal.Read.val_main_v1 (F := Ideal) (m ((c : Thread nD τ).loc main_arg5)) :=
  (W7_of_ne m ρ c main_v1 (by decide)).trans (at6_src m ρ c)
theorem at7_dst : W7 m ρ c (Proc.devRef .tc main_v3) = Cert.ReferenceIdeal.Read.val_main_v3 (F := Ideal) (m ((c : Thread nD τ).loc main_arg5)) :=
  (W7_of_ne m ρ c main_v3 (by decide)).trans (at6_dst m ρ c)
theorem at7_norm : W7 m ρ c (Proc.devRef .tc main_v25) = Cert.ReferenceIdeal.Read.val_main_v26 (F := Ideal) (m ((c : Thread nD τ).loc main_arg5)) :=
  (W7_of_ne m ρ c main_v25 (by decide)).trans (at6_norm m ρ c)
theorem at7_self : W7 m ρ c (Proc.devRef .tc main_v26) = Cert.ReferenceIdeal.Read.val_main_v40 (F := Ideal) (m ((c : Thread nD τ).loc main_arg5)) :=
  (W7_of_ne m ρ c main_v26 (by decide)).trans (at6_self m ρ c)
theorem at7_arg4 : W7 m ρ c (Proc.devRef .tc main_arg4) = m ((c : Thread nD τ).loc main_arg4) :=
  (W7_of_ne m ρ c main_arg4 (by decide)).trans (at6_arg4 m ρ c)
theorem at7_arg6 : W7 m ρ c (Proc.devRef .tc main_arg6) = m ((c : Thread nD τ).loc main_arg6) :=
  (W7_of_ne m ρ c main_arg6 (by decide)).trans (at6_arg6 m ρ c)

/-! ## The gather of source rows and the coefficient column -/

theorem at8_rows : W8 m ρ c (Proc.devRef .tc main_v52) = Cert.ReferenceIdeal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  dsimp only [W8, hostOps4]
  after_results_simp
  rw [at7_lin2, at7_src]
  rfl

/-- The coefficient column at (e, 0) is edge e's coefficient. -/
theorem at8_coef (i : S800000x64.Idx) :
    (W8 m ρ c (Proc.devRef .tc main_v53) : Vec Ideal S800000x1 .f32) (edgeCoef64 i) = Cert.ReferenceIdeal.Read.val_main_v80 (F := Ideal) (m ((c : Thread nD τ).loc main_arg5)) i := by
  dsimp only [W8, hostOps4]
  after_results_simp
  rw [at7_norm, Cert.ReferenceIdeal.Read.val_main_v80_apply, Cert.ReferenceIdeal.Read.val_main_v79_apply, norm_again]
  generalize Cert.ReferenceIdeal.Read.val_main_v26 (F := Ideal) (m ((c : Thread nD τ).loc main_arg5)) = y
  exact shapeCast_apply y _ _ _ (by
    show ((⟨1, ![800000]⟩ : Shape).rowMajor (Cert.ReferenceIdeal.Read.idx_main_v79 (Cert.ReferenceIdeal.Read.idx_main_v80 i))).val
      = ((⟨2, ![800000, 1]⟩ : Shape).rowMajor (edgeCoef64 i)).val
    rw [Shape.rowMajor_val_one, Shape.rowMajor_val_two]
    show (i 0).val = (i 0).val * 1 + 0
    omega)

theorem at8_dst : W8 m ρ c (Proc.devRef .tc main_v3) = Cert.ReferenceIdeal.Read.val_main_v3 (F := Ideal) (m ((c : Thread nD τ).loc main_arg5)) := by
  dsimp only [W8, hostOps4]
  after_results_simp
  exact at7_dst m ρ c
theorem at8_self : W8 m ρ c (Proc.devRef .tc main_v26) = Cert.ReferenceIdeal.Read.val_main_v40 (F := Ideal) (m ((c : Thread nD τ).loc main_arg5)) := by
  dsimp only [W8, hostOps4]
  after_results_simp
  exact at7_self m ρ c
theorem at8_lin2 : W8 m ρ c (Proc.devRef .tc main_v45) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  dsimp only [W8, hostOps4]
  after_results_simp
  exact at7_lin2 m ρ c
theorem at8_arg4 : W8 m ρ c (Proc.devRef .tc main_arg4) = m ((c : Thread nD τ).loc main_arg4) := by
  dsimp only [W8, hostOps4]
  after_results_simp
  exact at7_arg4 m ρ c
theorem at8_arg6 : W8 m ρ c (Proc.devRef .tc main_arg6) = m ((c : Thread nD τ).loc main_arg6) := by
  dsimp only [W8, hostOps4]
  after_results_simp
  exact at7_arg6 m ρ c

/-! ## Region 4: the scaling -/

theorem at9_msg2 : W9 m ρ c (Proc.devRef .tc main_v54) = Cert.ReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  refine (W9_arr m ρ c 2).trans ?_
  rw [final4]
  show scaled64 (W8 m ρ c (Proc.devRef .tc main_v52)) (W8 m ρ c (Proc.devRef .tc main_v53)) = _
  rw [at8_rows]
  funext i
  rw [Cert.ReferenceIdeal.Read.val_main_v81_apply, ← at8_coef m ρ c i]
  rfl

theorem at9_dst : W9 m ρ c (Proc.devRef .tc main_v3) = Cert.ReferenceIdeal.Read.val_main_v3 (F := Ideal) (m ((c : Thread nD τ).loc main_arg5)) :=
  (W9_of_ne m ρ c main_v3 (by decide)).trans (at8_dst m ρ c)
theorem at9_self : W9 m ρ c (Proc.devRef .tc main_v26) = Cert.ReferenceIdeal.Read.val_main_v40 (F := Ideal) (m ((c : Thread nD τ).loc main_arg5)) :=
  (W9_of_ne m ρ c main_v26 (by decide)).trans (at8_self m ρ c)
theorem at9_lin2 : W9 m ρ c (Proc.devRef .tc main_v45) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg5)) :=
  (W9_of_ne m ρ c main_v45 (by decide)).trans (at8_lin2 m ρ c)
theorem at9_arg4 : W9 m ρ c (Proc.devRef .tc main_arg4) = m ((c : Thread nD τ).loc main_arg4) :=
  (W9_of_ne m ρ c main_arg4 (by decide)).trans (at8_arg4 m ρ c)
theorem at9_arg6 : W9 m ρ c (Proc.devRef .tc main_arg6) = m ((c : Thread nD τ).loc main_arg6) :=
  (W9_of_ne m ρ c main_arg6 (by decide)).trans (at8_arg6 m ρ c)

/-! ## The scatter onto destinations, the self term, the bias row -/

theorem at10_agg2 : W10 m ρ c (Proc.devRef .tc main_v57) = Cert.ReferenceIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  dsimp only [W10, hostOps5]
  after_results_simp
  rw [at9_msg2, at9_dst]
  rfl

theorem at10_selfterm2 : W10 m ρ c (Proc.devRef .tc main_v60) = Cert.ReferenceIdeal.Read.val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  dsimp only [W10, hostOps5]
  after_results_simp
  rw [at9_self, at9_lin2, ← self_again]
  rfl

/-- The bias row at (0, j) is the bias of column j. -/
theorem at10_bias (i : S50000x64.Idx) :
    (W10 m ρ c (Proc.devRef .tc main_v61) : Vec Ideal S1x64 .f32) (biasAt64 i) = Cert.ReferenceIdeal.Read.val_main_v91 (F := Ideal) (m ((c : Thread nD τ).loc main_arg4)) i := by
  dsimp only [W10, hostOps5]
  after_results_simp
  rw [at9_arg4, Cert.ReferenceIdeal.Read.val_main_v91_apply, Cert.ReferenceIdeal.Read.val_main_v90_apply]
  generalize (m ((c : Thread nD τ).loc main_arg4)) = y
  exact shapeCast_apply y _ _ _ (by
    show ((⟨1, ![64]⟩ : Shape).rowMajor (Cert.ReferenceIdeal.Read.idx_main_v90 (Cert.ReferenceIdeal.Read.idx_main_v91 i))).val
      = ((⟨2, ![1, 64]⟩ : Shape).rowMajor (biasAt64 i)).val
    rw [Shape.rowMajor_val_one, Shape.rowMajor_val_two]
    show (i 1).val = 0 * 64 + (i 1).val
    omega)

theorem at10_arg6 : W10 m ρ c (Proc.devRef .tc main_arg6) = m ((c : Thread nD τ).loc main_arg6) := by
  dsimp only [W10, hostOps5]
  after_results_simp
  exact at9_arg6 m ρ c

/-! ## Region 5: the node update -/

/-- Layer 2's output: the node embeddings. -/
theorem at11_embed : W11 m ρ c (Proc.devRef .tc main_v62) = Cert.ReferenceIdeal.Read.val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W11_arr m ρ c 3).trans ?_
  rw [final5]
  show combined64 (W10 m ρ c (Proc.devRef .tc main_v57)) (W10 m ρ c (Proc.devRef .tc main_v60)) (W10 m ρ c (Proc.devRef .tc main_v61)) = _
  rw [at10_agg2, at10_selfterm2]
  funext i
  rw [Cert.ReferenceIdeal.Read.val_main_v92_apply, Cert.ReferenceIdeal.Read.val_main_v89_apply, ← at10_bias m ρ c i]
  rfl

theorem at11_arg6 : W11 m ρ c (Proc.devRef .tc main_arg6) = m ((c : Thread nD τ).loc main_arg6) :=
  (W11_of_ne m ρ c main_arg6 (by decide)).trans (at10_arg6 m ρ c)

end Cert.KernelIdeal.Hand

end
-- ==== Proof.Reg6.lean ====
/-
  Region 6 (the decoder, 25 row blocks of 8000): the output array ends at pairDot of the two gathered embedding arrays.
-/
import proofs.«168708_j30296699306334_1_alg».proof.Proof.Gen.KernelIdeal.Frame
import proofs.«168708_j30296699306334_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen
open Idealize.ShloMosaic.ValueIdx

variable (V : (c : Dev nD) → (b : Ref sig .tc) → Buf (Elt Ideal) ((c : Thread nD τ).loc b))

/-! ## The body's payload at a row -/

/-- The sum over the 64 columns of a block of products, kept as a column: entry (p, 0) of the column is the sum over k
    of the block at (p, k). The sum starts from the zero word, which is the real zero. -/
private theorem laneSum_column_apply (y : FVec Ideal S8000x64 .f32) (p : Fin 8000) (u : Fin 1) :
    shapeCast S8000x1 (multiReduction (F := Ideal) .add [1] S8000 y 0x00000000#32 reduces_S8000x64_S8000 (.inl rfl) rfl)
        shapeCasts_S8000_S8000x1 (ix2 p u)
      = ∑ k : Fin 64, y (ix2 p k) := by
  refine (shapeCast_apply _ shapeCasts_S8000_S8000x1 (ix2 p u) (ix1 p) ?_).trans ?_
  · have hu : u.val = 0 := by omega
    rw [Shape.rowMajor_val_one, Shape.rowMajor_val_two]
    show p.val = p.val * 1 + u.val
    rw [hu, Nat.mul_one, Nat.add_zero]
  · refine (Ideal.multiReduction_add_single (φ := .f32) y 0x00000000#32 reduces_S8000x64_S8000 (.inl rfl) rfl (ix1 p)).trans ?_
    refine Finset.sum_congr rfl fun k _ => congrArg y ?_
    funext a; apply Fin.ext
    match a with
    | ⟨0, _⟩ => rfl
    | ⟨1, _⟩ => rfl

/-- The body's payload at row p of the output block: the zero word plus the inner product of row p of the two input blocks. -/
private theorem pay6_apply (x0 x1 : Vec Ideal S8000x64 .f32) (p : Fin 8000) (u : Fin 1) :
    k6_pay1 (F := Ideal) x0 x1 (ix2 p u)
      = FloatOps.ofBits (F := Ideal) .f32 0x00000000#32
        + ∑ k : Fin 64, FloatOps.mulf (F := Ideal) (φ := .f32) (x0 (ix2 p k)) (x1 (ix2 p k)) := by
  unfold k6_pay1
  rw [shapeCast_self, shapeCast_self]
  refine (laneSum_column_apply _ p u).trans ?_
  rw [show FloatOps.ofBits (F := Ideal) .f32 0x00000000#32 = (0 : EReal) from Ideal.ofBits_zero_f32, zero_add]
  rfl

/-! ## From the blocks to the array -/

private theorem zeros2 : (![0, 0] : Fin 2 → Nat) = fun _ => 0 := funext fun a => by fin_cases a <;> rfl

/-- The printed index maps, decided once over the 25 grid points: at point t all three windows sit at row block t, and
    the column block is always the first. -/
private theorem blockIndex6 : ∀ t : Fin cfg6.N, win6_0.index t (0 : Fin 2) = t.val
    ∧ win6_0.index t (1 : Fin 2) = 0
    ∧ win6_1.index t (0 : Fin 2) = t.val
    ∧ win6_1.index t (1 : Fin 2) = 0
    ∧ win6_2.index t (0 : Fin 2) = t.val
    ∧ win6_2.index t (1 : Fin 2) = 0 :=
  (by decide +kernel : ∀ t : Fin grid6.N, _)

/-- The first embedding array's block at point t, read at (p, k), is the array at the entry that row p of the output
    block at point t reads for the summation index k. -/
private theorem leftBlock_apply (c : Dev nD) (t : Fin cfg6.N) (p : Fin 8000) (k : Fin 64) (u : Fin 1) :
    iblk6 V c 0 t (ix2 p k) = V c main_v71 (pairAt (((cfg6.win 2).blk t).view.emb (ix2 p u)) k) := by
  obtain ⟨e0, e1, e2, e3, e4, e5⟩ := blockIndex6 t
  unfold iblk6
  show V c main_v71 (((cfg6.win 0).blk t).view.emb (ix2 p k)) = _
  refine congrArg (V c main_v71) ?_
  funext a; apply Fin.ext
  match a with
  | ⟨0, _⟩ =>
    show win6_0.index t (0 : Fin 2) * 8000 + 1 * p.val = win6_2.index t (0 : Fin 2) * 8000 + 1 * p.val
    omega
  | ⟨1, _⟩ =>
    show win6_0.index t (1 : Fin 2) * 64 + 1 * k.val = k.val
    omega

/-- The second embedding array's block likewise. -/
private theorem rightBlock_apply (c : Dev nD) (t : Fin cfg6.N) (p : Fin 8000) (k : Fin 64) (u : Fin 1) :
    iblk6 V c 1 t (ix2 p k) = V c main_v80 (pairAt (((cfg6.win 2).blk t).view.emb (ix2 p u)) k) := by
  obtain ⟨e0, e1, e2, e3, e4, e5⟩ := blockIndex6 t
  unfold iblk6
  show V c main_v80 (((cfg6.win 1).blk t).view.emb (ix2 p k)) = _
  refine congrArg (V c main_v80) ?_
  funext a; apply Fin.ext
  match a with
  | ⟨0, _⟩ =>
    show win6_1.index t (0 : Fin 2) * 8000 + 1 * p.val = win6_2.index t (0 : Fin 2) * 8000 + 1 * p.val
    omega
  | ⟨1, _⟩ =>
    show win6_1.index t (1 : Fin 2) * 64 + 1 * k.val = k.val
    omega

/-- What point t writes back is block t of the inner products of the two embedding arrays as the region finds them. -/
private theorem flushed6_eq (c : Dev nD) (t : Fin cfg6.N) :
    (dat6 V c).flushed 2 t = ((cfg6.win 2).blk t).view.read (Elt Ideal) (pairDot (V c main_v71) (V c main_v80)) := by
  show (cfg6.win 2).cut (grid6.coords t) ((dat6 V c).after 2 t) = _
  rw [after6_2]
  unfold out6_2
  rw [View.canon_unit_zero zeros2]
  simp only [View.ld_unit_zero (S := S8000x64) zeros2]
  funext (j : S8000x1.Idx)
  obtain ⟨p, u, rfl⟩ : ∃ (p : Fin 8000) (u : Fin 1), j = ix2 p u := ⟨j 0, j 1, eq_ix2 j⟩
  refine (pay6_apply _ _ p u).trans ?_
  show _ = pairDot (V c main_v71) (V c main_v80) (((cfg6.win 2).blk t).view.emb (ix2 p u))
  unfold pairDot
  refine congrArg (_ + ·) (Finset.sum_congr rfl fun k _ => ?_)
  rw [leftBlock_apply V c t p k u, rightBlock_apply V c t p k u]

/-- An index of the output array is in point t's block iff each coordinate is in the block's range on its axis. -/
private theorem mem_outBlock6 (t : Fin cfg6.N) (i : S200000x1.Idx) :
    i ∈ ((cfg6.win 2).blk t).view.set ↔ ∀ a : Fin 2, win6_2.index t a * S8000x1.size a ≤ (i a).val ∧ (i a).val < win6_2.index t a * S8000x1.size a + S8000x1.size a := by
  show i ∈ ((View.whole main_v81).slice (win6_2.rect t)).set ↔ _
  rw [View.set_slice_whole, Rect.mem_set_unit]
  exact Iff.rfl

/-- Every row of the output array is in the block of the point its row number divided by 8000 names. -/
private theorem outBlocks_cover6 (i : S200000x1.Idx) :
    ∃ t : Fin cfg6.N, (cfg6.win 2).flush t = true ∧ i ∈ ((cfg6.win 2).blk t).view.set := by
  have hi0 : (i 0).val < 200000 := (i 0).isLt
  have hi1 : (i 1).val < 1 := (i 1).isLt
  have hN : (i 0).val / 8000 < grid6.N := by rw [N_6]; omega
  refine ⟨⟨(i 0).val / 8000, hN⟩, flush6_2 _, ?_⟩
  rw [mem_outBlock6]
  obtain ⟨e0, e1, e2, e3, e4, e5⟩ := blockIndex6 ⟨(i 0).val / 8000, hN⟩
  intro a
  match a with
  | ⟨0, _⟩ =>
    show win6_2.index ⟨(i 0).val / 8000, hN⟩ (0 : Fin 2) * 8000 ≤ (i 0).val ∧ (i 0).val < win6_2.index ⟨(i 0).val / 8000, hN⟩ (0 : Fin 2) * 8000 + 8000
    rw [e4]
    show (i 0).val / 8000 * 8000 ≤ (i 0).val ∧ (i 0).val < (i 0).val / 8000 * 8000 + 8000
    omega
  | ⟨1, _⟩ =>
    show win6_2.index ⟨(i 0).val / 8000, hN⟩ (1 : Fin 2) * 1 ≤ (i 1).val ∧ (i 1).val < win6_2.index ⟨(i 0).val / 8000, hN⟩ (1 : Fin 2) * 1 + 1
    rw [e5]
    omega

/-- Region 6 (the decoder, 25 row blocks of 8000): the output array ends at pairDot of the two gathered embedding arrays. -/
theorem final6 (c : Dev nD) :
    (dat6 V c).arrAt 2 cfg6.N = pairDot (V c main_v71) (V c main_v80) :=
  (dat6 V c).arrAt_eq_of_cover 2 (pairDot (V c main_v71) (V c main_v80)) (fun t _ => flushed6_eq V c t) outBlocks_cover6

end Cert.KernelIdeal.Hand

end
-- ==== Proof.Chain4.lean ====
/-
  The decoder, from the last host stretch before region 6 to the return: the two gathers of embedding rows, the inner products, and the final reshape, as the reference's last stage of the arguments.
-/
import proofs.«168708_j30296699306334_1_alg».proof.Proof.Gen.KernelIdeal.Frame
import proofs.«168708_j30296699306334_1_alg».proof.Proof.Gen.ReferenceIdeal.Read
import proofs.«168708_j30296699306334_1_alg».proof.Proof.Spec
import proofs.«168708_j30296699306334_1_alg».proof.Proof.Keep
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import proofs.«168708_j30296699306334_1_alg».proof.Proof.Chain3
import proofs.«168708_j30296699306334_1_alg».proof.Proof.Reg6

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.StableHlo

variable (m : (ℓ : Loc nD τ sig) → Buf (Elt Ideal) ℓ) (ρ : Dev nD → PrngReg) (c : Dev nD)

/-! ## The two gathers of embedding rows -/

/-- The embedding rows the pairs' first members select. -/
private theorem at12_za : W12 m ρ c (Proc.devRef .tc main_v71) = Cert.ReferenceIdeal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  dsimp only [W12, hostOps6]
  after_results_simp
  rw [at11_embed, at11_arg6]
  rfl

/-- The embedding rows the pairs' second members select. -/
private theorem at12_zb : W12 m ρ c (Proc.devRef .tc main_v80) = Cert.ReferenceIdeal.Read.val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  dsimp only [W12, hostOps6]
  after_results_simp
  rw [at11_embed, at11_arg6]
  rfl

/-! ## Region 6: the inner products -/

/-- The column of inner products of the two gathered arrays. -/
private theorem at13_dot : W13 m ρ c (Proc.devRef .tc main_v81) = pairDot (Cert.ReferenceIdeal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (Cert.ReferenceIdeal.Read.val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine (W13_arr m ρ c 2).trans ?_
  rw [final6]
  show pairDot (W12 m ρ c (Proc.devRef .tc main_v71)) (W12 m ρ c (Proc.devRef .tc main_v80)) = _
  rw [at12_za, at12_zb]

/-! ## The final reshape -/

/-- Entry (p, 0) of the one-column array, for entry p of the result vector. -/
private abbrev columnEntry (i : S200000.Idx) : S200000x1.Idx := fun a => match a with
  | ⟨0, _⟩ => ⟨(i 0).val, (i 0).isLt⟩
  | ⟨1, _⟩ => ⟨0, Nat.one_pos⟩

/-- The result buffer at the return is the reference's result stage of the seven arguments. -/
theorem out_eq : W14 m ρ c (Proc.devRef .tc main_v82) = Cert.ReferenceIdeal.Read.val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  dsimp only [W14, hostOps7]
  after_results_simp
  rw [at13_dot]
  funext i
  refine (shapeCast_apply _ _ i (columnEntry i) (by
    show ((⟨2, ![200000, 1]⟩ : Shape).rowMajor (columnEntry i)).val = ((⟨1, ![200000]⟩ : Shape).rowMajor i).val
    rw [Shape.rowMajor_val_two, Shape.rowMajor_val_one]
    show (i 0).val * 1 + 0 = (i 0).val
    omega)).trans ?_
  rw [Cert.ReferenceIdeal.Read.val_main_v112_apply]
  unfold pairDot
  refine congrArg (_ + ·) (Finset.sum_congr rfl fun k _ => ?_)
  rw [Cert.ReferenceIdeal.Read.val_main_v111_apply]
  have hidx : pairAt (columnEntry i) k = Cert.ReferenceIdeal.Read.idx_main_v112 i k :=
    funext fun a => Fin.ext (by match a with | ⟨0, _⟩ => rfl | ⟨1, _⟩ => rfl)
  rw [hidx]

end Cert.KernelIdeal.Hand

end
-- ==== Proof.lean ====
/-
  The certificate's claims, assembled.

  The three frames: the two kernel programs' are the generated frame certificates (seven regions, each a body of
  whole-block loads, pointwise or contracting arithmetic and one whole-block store); the reference has no kernel and
  its frame is its run with the result dropped. The idealisation rewrote nothing, so its claim is trivial.

  The value claim. Both programs compute, over the extended reals, a two-layer graph convolution followed by an
  inner-product decoder: with d the inverse square root of (in-degree + 1), each layer maps node features h to
  scatter-add over edges (s, t) of (h W)[s] * d[s] * d[t] onto t, plus d * d * (h W), plus the bias (layer 1 then
  takes the maximum with zero), and the result at pair (u, v) is the sum over the 64 columns of z[u] * z[v]. The
  kernel program does the affine maps, the per-edge scaling, the node updates and the inner products in seven tiled
  regions and everything else (degrees, gathers, scatter-adds, self terms) on the host with the reference's own
  operations; over the extended reals a region's tiling, a block product accumulated from zero and a lane sum are the
  same sums the reference's whole-array operations are, so each region's output array is the reference's stage of the
  same inputs (the Reg modules), and stage by stage along @main (the Chain modules) the kernel's result buffer is the
  reference's result stage of the seven arguments. No law that needs finiteness is used.
-/
import proofs.«168708_j30296699306334_1_alg».proof.Defs
import proofs.«168708_j30296699306334_1_alg».proof.Proof.Gen.Kernel
import proofs.«168708_j30296699306334_1_alg».proof.Proof.Gen.Kernel.Skeleton
import proofs.«168708_j30296699306334_1_alg».proof.Proof.Gen.Kernel.Launch
import proofs.«168708_j30296699306334_1_alg».proof.Proof.Gen.Kernel.Points
import proofs.«168708_j30296699306334_1_alg».proof.Proof.Gen.Kernel.Frame
import proofs.«168708_j30296699306334_1_alg».proof.Proof.Gen.KernelIdeal
import proofs.«168708_j30296699306334_1_alg».proof.Proof.Gen.KernelIdeal.Skeleton
import proofs.«168708_j30296699306334_1_alg».proof.Proof.Gen.KernelIdeal.Launch
import proofs.«168708_j30296699306334_1_alg».proof.Proof.Gen.KernelIdeal.Points
import proofs.«168708_j30296699306334_1_alg».proof.Proof.Gen.KernelIdeal.Frame
import proofs.«168708_j30296699306334_1_alg».proof.Proof.Gen.ReferenceIdeal
import proofs.«168708_j30296699306334_1_alg».proof.Proof.Gen.Pre_finite_inputs
import proofs.«168708_j30296699306334_1_alg».proof.Proof.Gen.ReferenceIdeal.Run
import proofs.«168708_j30296699306334_1_alg».proof.Proof.Gen.ReferenceIdeal.Read
import proofs.«168708_j30296699306334_1_alg».proof.Proof.KRun
import proofs.«168708_j30296699306334_1_alg».proof.Proof.Chain4
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel program's run, re-posted: the result buffer ends at the reference's result stage of the arguments as
    launched, and the arguments are kept. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v82) = Cert.ReferenceIdeal.Read.val_main_v112 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run Cert.KernelIdeal.defs _ _).mono (fun r h c => ⟨(h c).1.trans (Cert.KernelIdeal.Hand.out_eq m ρ c), (h c).2⟩)
    (Cert.KernelIdeal.Hand.run_out (F := Ideal) m ρ)

/-- Both runs end with the result buffer at the reference's result stage of the (agreeing) arguments. -/
theorem algebraic : Cert.algebraic_KernelIdeal_ReferenceIdeal := by
  intro m ρ m' ρ' _ hagree
  refine ⟨_, kernel_run m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v112_eq]
  obtain ⟨e0, e1, e2, e3, e4, e5, e6⟩ := hagree c
  rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
